-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩
abbrev S1 : Shape := ⟨1, ![1]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536 : S_.BroadcastsInDim S65536 (![] : Fin 0 → Fin S65536.rank)
  reducesTo_S65536_S_d0 : S65536.ReducesTo [0] S_
  slices_S65536_S1_0 : S65536.Slices ![0] S1
  shapeCasts_S1_S_ : S1.ShapeCasts S_

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 512#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  let main_v11 : IVec S1 32 := (extractStridedSlice S1 ![0] · slices_S65536_S1_0) main_arg1
  let main_v12 : IVec S_ 32 := shapeCast S_ main_v11 shapeCasts_S1_S_
  let main_v13 : IVec S65536 32 := broadcastInDim S65536 ![] bcast_S_S65536 main_v12
  let main_v14 : IVec S65536 1 := cmpi .ne main_arg1 main_v13
  let main_c_3 : IVec S_ 1 := constantI S_ 1 0#1
  let main_v15 : IVec S_ 1 := (fun x v => Host.reduce IntOp.ori x v reducesTo_S65536_S_d0 h_S_) main_v14 main_c_3
  let main_v16 : IVec S_ 1 := andi main_v10 main_v15
  main_v16
-- ==== Kernel.lean ====
abbrev S65536x512 : Shape := ⟨2, ![65536, 512]⟩
abbrev S65536 : Shape := ⟨1, ![65536]⟩
abbrev S_ : Shape := ⟨0, ![]⟩
abbrev S16x1x4096 : Shape := ⟨3, ![16, 1, 4096]⟩
abbrev S2x512x512 : Shape := ⟨3, ![2, 512, 512]⟩
abbrev S2x1x512 : Shape := ⟨3, ![2, 1, 512]⟩
abbrev S4096x512 : Shape := ⟨2, ![4096, 512]⟩
abbrev S1x1x4096 : Shape := ⟨3, ![1, 1, 4096]⟩
abbrev S1x512x512 : Shape := ⟨3, ![1, 512, 512]⟩
abbrev S1x1x512 : Shape := ⟨3, ![1, 1, 512]⟩
abbrev S1x4096 : Shape := ⟨2, ![1, 4096]⟩
abbrev S4096x1 : Shape := ⟨2, ![4096, 1]⟩
abbrev S512x512 : Shape := ⟨2, ![512, 512]⟩
abbrev S512 : Shape := ⟨1, ![512]⟩
abbrev S1x512 : Shape := ⟨2, ![1, 512]⟩
abbrev S512x1 : Shape := ⟨2, ![512, 1]⟩

abbrev nBuf : Space → Nat
  | .hbm => 58
  | .vmem => 10
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S16x1x4096, .i32⟩
  | .hbm, ⟨11, _⟩ => ⟨S2x512x512, .f32⟩
  | .hbm, ⟨12, _⟩ => ⟨S2x1x512, .f32⟩
  | .hbm, ⟨13, _⟩ => ⟨S_, .f32⟩
  | .hbm, ⟨14, _⟩ => ⟨S512x512, .f32⟩
  | .hbm, ⟨15, _⟩ => ⟨S_, .f32⟩
  | .hbm, ⟨16, _⟩ => ⟨S1x512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512x1, .f32⟩
  | .hbm, ⟨30, _⟩ => ⟨S512x512, .f32⟩
  | .hbm, ⟨31, _⟩ => ⟨S512x512, .f32⟩
  | .hbm, ⟨32, _⟩ => ⟨S1x512, .f32⟩
  | .hbm, ⟨33, _⟩ => ⟨S512x512, .f32⟩
  | .hbm, ⟨34, _⟩ => ⟨S512x512, .f32⟩
  | .hbm, ⟨35, _⟩ => ⟨S512x1, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S1x1x4096, .i32⟩
  | .local _ .vmem, ⟨3, _⟩ => ⟨S1x1x4096, .i32⟩
  | .local _ .vmem, ⟨4, _⟩ => ⟨S1x512x512, .f32⟩
  | .local _ .vmem, ⟨5, _⟩ => ⟨S1x512x512, .f32⟩
  | .local _ .vmem, ⟨6, _⟩ => ⟨S1x1x512, .f32⟩
  | .local _ .vmem, ⟨7, _⟩ => ⟨S1x1x512, .f32⟩
  | .local _ .vmem, ⟨8, _⟩ => ⟨S1x512x512, .f32⟩
  | .local _ .vmem, ⟨9, _⟩ => ⟨S1x1x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_cst : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S65536 : S_.BroadcastsInDim S65536 (![] : Fin 0 → Fin S65536.rank)
  shapeCasts_S65536_S16x1x4096 : S65536.ShapeCasts S16x1x4096
  inb_S1x512x512_S1x512x512_0_0_0 : ∀ a, (![0, 0, 0] : Fin 3 → Nat) a + S1x512x512.size a ≤ S1x512x512.size a
  h_S1x512x512 : 0 < S1x512x512.numel
  shapeCasts_S1x512x512_S1x512x512 : S1x512x512.ShapeCasts S1x512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S4096x512_S4096x512_0_0 : ∀ a, (![0, 0] : Fin 2 → Nat) a + S4096x512.size a ≤ S4096x512.size a
  h_S4096x512 : 0 < S4096x512.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  transposes_S1x4096_p1_0_S4096x1 : S1x4096.Transposes [1, 0] S4096x1
  iota_S4096x512_d1_w32 : S4096x512.Iotas .tc 32 [1]
  broadcasts_S4096x1_S4096x512 : S4096x1.Broadcasts S4096x512
  natLt_1_32 : 1 < 32
  bitsLt_bf16_f32 : FTy.bits .bf16 < FTy.bits .f32
  reduces_S4096x512_S512 : S4096x512.Reduces [0] S512
  shapeCasts_S512_S1x512 : S512.ShapeCasts S1x512
  shapeCasts_S1x512x512_S512x512 : S1x512x512.ShapeCasts S512x512
  shapeCasts_S512x512_S1x512x512 : S512x512.ShapeCasts S1x512x512
  shapeCasts_S1x1x512_S1x512 : S1x1x512.ShapeCasts S1x512
  shapeCasts_S1x512_S1x1x512 : S1x512.ShapeCasts S1x1x512
  reducesTo_S2x512x512_S512x512_d0 : S2x512x512.ReducesTo [0] S512x512
  h_S_ : 0 < S_.numel
  reducesTo_S2x1x512_S1x512_d0 : S2x1x512.ReducesTo [0] S1x512
  shapeCasts_S1x512_S512 : S1x512.ShapeCasts S512
  reducesTo_S512x512_S512_d0 : S512x512.ReducesTo [0] S512
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  reducesTo_S512_S_d0 : S512.ReducesTo [0] S_
  dot_S4096x512_S4096x512_S512x512_0_0_1_1_n_n_wf : DotDims.WF S4096x512 S4096x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x4096.size a
  hwx0_1 : ∀ i : grid0.Coords, EltTy.bits .i32 = 32 ∨ (Rect.block (s := S16x1x4096) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S2x512x512.size a
  hwx0_2 : ∀ i : grid0.Coords, EltTy.bits .f32 = 32 ∨ (Rect.block (s := S2x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)

variable [Facts₀]

def dot_S4096x512_S4096x512_S512x512_0_0_1_1_n_n : DotDims S4096x512 S4096x512 S512x512 where
  lhsContracting := [0]
  rhsContracting := [0]
  lhsNonContracting := [1]
  rhsNonContracting := [1]
  lhsBatch := []
  rhsBatch := []
  wf := dot_S4096x512_S4096x512_S512x512_0_0_1_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S_ : Shape := ⟨0, ![]⟩
abbrev S512x512 : Shape := ⟨2, ![512, 512]⟩
abbrev S65536x1 : Shape := ⟨2, ![65536, 1]⟩
abbrev S512 : Shape := ⟨1, ![512]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S_, .f32⟩
  | .hbm, ⟨3, _⟩ => ⟨S512x512, .f32⟩
  | .hbm, ⟨4, _⟩ => ⟨S65536x1, .i32⟩
  | .hbm, ⟨5, _⟩ => ⟨S512x512, .f32⟩
  | .hbm, ⟨6, _⟩ => ⟨S_, .f32⟩
  | .hbm, ⟨7, _⟩ => ⟨S65536, .f32⟩
  | .hbm, ⟨8, _⟩ => ⟨S_, .f32⟩
  | .hbm, ⟨9, _⟩ => ⟨S512, .f32⟩
  | .hbm, ⟨10, _⟩ => ⟨S65536x1, .i32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S65536x512, .f32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S65536, .f32⟩
  | .hbm, ⟨32, _⟩ => ⟨S65536x1, .f32⟩
  | .hbm, ⟨33, _⟩ => ⟨S65536x512, .f32⟩
  | .hbm, ⟨34, _⟩ => ⟨S65536x512, .f32⟩
  | .hbm, ⟨35, _⟩ => ⟨S1x512, .f32⟩
  | .hbm, ⟨36, _⟩ => ⟨S65536x512, .f32⟩
  | .hbm, ⟨37, _⟩ => ⟨S65536x512, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S_, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S512 : S_.BroadcastsInDim S512 (![] : Fin 0 → Fin S512.rank)
  reducesTo_S65536x512_S512_d0 : S65536x512.ReducesTo [0] S512
  h_S_ : 0 < S_.numel
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x1 : S_.BroadcastsInDim S65536x1 (![] : Fin 0 → Fin S65536x1.rank)
  bcast_S_S65536x512 : S_.BroadcastsInDim S65536x512 (![] : Fin 0 → Fin S65536x512.rank)
  reducesTo_S65536x512_S65536_d1 : S65536x512.ReducesTo [1] S65536
  reducesTo_S65536x1_S_d0_1 : S65536x1.ReducesTo [0, 1] S_
  scatter_S512x512_S65536x1_S65536x512_1_0_0_1_wf : ScatterDims.WF S512x512 S65536x1 S65536x512 [1] [0] [0] 1
  scatter_S512_S65536x1_S65536_n_0_0_1_wf : ScatterDims.WF S512 S65536x1 S65536 [] [0] [0] 1
  gather_S512x512_S65536x1_S65536x512_1_0_n_n_0_1_1512_wf : GatherDims.WF S512x512 S65536x1 S65536x512 [1] [0] [] [0] [] 1 ![1, 512]
  gather_S512_S65536x1_S65536_n_0_n_n_0_1_1_wf : GatherDims.WF S512 S65536x1 S65536 [] [0] [] [0] [] 1 ![1]

variable [Facts₀]

def scatter_S512x512_S65536x1_S65536x512_1_0_0_1 : ScatterDims S512x512 S65536x1 S65536x512 where
  updateWindowDims := [1]
  insertedWindowDims := [0]
  scatterDimsToOperandDims := [0]
  indexVectorDim := 1
  wf := scatter_S512x512_S65536x1_S65536x512_1_0_0_1_wf
def scatter_S512_S65536x1_S65536_n_0_0_1 : ScatterDims S512 S65536x1 S65536 where
  updateWindowDims := []
  insertedWindowDims := [0]
  scatterDimsToOperandDims := [0]
  indexVectorDim := 1
  wf := scatter_S512_S65536x1_S65536_n_0_0_1_wf
def gather_S512x512_S65536x1_S65536x512_1_0_n_n_0_1_1512 : GatherDims S512x512 S65536x1 S65536x512 where
  offsetDims := [1]
  collapsedSliceDims := [0]
  operandBatchingDims := []
  startIndicesBatchingDims := []
  startIndexMap := [0]
  indexVectorDim := 1
  sliceSizes := ![1, 512]
  wf := gather_S512x512_S65536x1_S65536x512_1_0_n_n_0_1_1512_wf
def gather_S512_S65536x1_S65536_n_0_n_n_0_1_1 : GatherDims S512 S65536x1 S65536 where
  offsetDims := []
  collapsedSliceDims := [0]
  operandBatchingDims := []
  startIndicesBatchingDims := []
  startIndexMap := [0]
  indexVectorDim := 1
  sliceSizes := ![1]
  wf := gather_S512_S65536x1_S65536_n_0_n_n_0_1_1_wf

class Facts : Prop extends Facts₀ where

variable [Facts]
-- ==== Proof.Region.lean ====
/-
  What the kernel's two accumulators hold after each grid point, and what the two outputs are handed at the last
  point of each group of eight.

  The 16 grid points are two groups of eight. At a group's first point both accumulators are reset and then updated
  with the point's blocks; at the other points they are updated over what the point before left; at a group's last
  point the updated accumulators are also copied to the outputs' blocks. So after point `n` the accumulators hold the
  body's update applied successively to the blocks of the points of `n`'s group up to `n`, from the reset values
  (`accS`, `accN`), and the outputs' staging buffers at a last point hold the same.
-/
import proofs.«407749_j69217692942358_3_alg».proof.Proof.Gen.KernelIdeal.Frame
import Idealize.ShloMosaic.Lib.Pipeline.Value
import Idealize.ShloMosaic.Lib.Tactic

noncomputable section

namespace Cert.KernelIdeal.Region

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The block of samples the body finds at point `t`. -/
abbrev xblk (c : Dev nD) (t : Fin cfg0.N) : Vec F S4096x512 .f32 := iblk m c 0 t
/-- The block of labels the body finds at point `t`. -/
abbrev lblk (c : Dev nD) (t : Fin cfg0.N) : Vec F S1x1x4096 .i32 := iblk m c 1 t

/-- The class-sum accumulator after point `n`. -/
def accS (c : Dev nD) : (n : ℕ) → n < cfg0.N → Vec F S1x512x512 .f32
  | 0, h => k0_pay4 (xblk m c ⟨0, h⟩) (lblk m c ⟨0, h⟩) k0_pay1
  | n + 1, h => k0_pay4 (xblk m c ⟨n + 1, h⟩) (lblk m c ⟨n + 1, h⟩)
      (if (n + 1) % 8 = 0 then k0_pay1 else accS c n (Nat.lt_of_succ_lt h))

/-- The class-count accumulator after point `n`. -/
def accN (c : Dev nD) : (n : ℕ) → n < cfg0.N → Vec F S1x1x512 .f32
  | 0, h => k0_pay5 (lblk m c ⟨0, h⟩) k0_pay2
  | n + 1, h => k0_pay5 (lblk m c ⟨n + 1, h⟩)
      (if (n + 1) % 8 = 0 then k0_pay2 else accN c n (Nat.lt_of_succ_lt h))

/-- The zero offsets of a rank-3 and of a rank-2 whole-buffer rectangle, however they are spelt. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-- At a middle point of a group the class-sum scratch, holding `xs0`, is left at the body's update of `xs0` with the
    point's blocks: the one store covers the buffer, and its payload's loads read the whole buffers. -/
private theorem scrS_B (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : ¬cond0_0 i) (hc1 : ¬cond0_1 i) (x0 : Vec F S4096x512 .f32) (x1 : Vec F S1x1x4096 .i32) (xs0 : Vec F S1x512x512 .f32) (xs1 : Vec F S1x1x512 .f32) :
    sout0_B_0 c i a2 h2 a3 h3 a4 h4 a5 h5 a6 h6 a7 h7 hc0 hc1 x0 x1 xs0 xs1 = k0_pay4 x0 x1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz3]
  simp only [View.readAt_eq_ld, h2.read_unread, h3.read_unread, h6.read_unread, View.ld_unit_zero (S := S4096x512) hz2,
    View.ld_unit_zero (S := S1x1x4096) hz3, View.ld_unit_zero (S := S1x512x512) hz3]

/-- At a middle point of a group the class-count scratch, holding `xs1`, is left at the update of `xs1` with the labels. -/
private theorem scrN_B (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : ¬cond0_0 i) (hc1 : ¬cond0_1 i) (x0 : Vec F S4096x512 .f32) (x1 : Vec F S1x1x4096 .i32) (xs0 : Vec F S1x512x512 .f32) (xs1 : Vec F S1x1x512 .f32) :
    sout0_B_1 c i a2 h2 a3 h3 a4 h4 a5 h5 a6 h6 a7 h7 hc0 hc1 x0 x1 xs0 xs1 = k0_pay5 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz3]
  simp only [View.readAt_eq_ld, h3.read_unread, h7.read_unread,
    View.ld_unit_zero (S := S1x1x4096) hz3, View.ld_unit_zero (S := S1x1x512) hz3]

/-- At the first point of a group the class-sum scratch is first stored the reset value and then read back by the update,
    so it is left at the update of the reset value whatever it held before: of the two stores the later covers. -/
private theorem scrS_A (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : cond0_0 i) (hc1 : ¬cond0_1 i) (x0 : Vec F S4096x512 .f32) (x1 : Vec F S1x1x4096 .i32) :
    sout0_A_0 c i a2 h2 a3 h3 a4 h4 a5 h5 a6 h6 a7 h7 hc0 hc1 x0 x1 = k0_pay4 x0 x1 k0_pay1 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x512x512) hz3, View.readCov_unit_zero (S := S1x512x512) _ hz3]
  simp only [View.readAt_eq_ld, h2.read_unread, h3.read_unread, View.ld_unit_zero (S := S4096x512) hz2,
    View.ld_unit_zero (S := S1x1x4096) hz3]

/-- At the first point of a group the class-count scratch is left at the update of its reset value. -/
private theorem scrN_A (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : cond0_0 i) (hc1 : ¬cond0_1 i) (x0 : Vec F S4096x512 .f32) (x1 : Vec F S1x1x4096 .i32) :
    sout0_A_1 c i a2 h2 a3 h3 a4 h4 a5 h5 a6 h6 a7 h7 hc0 hc1 x0 x1 = k0_pay5 x1 k0_pay2 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1x1x512) hz3, View.readCov_unit_zero (S := S1x1x512) _ hz3]
  simp only [View.readAt_eq_ld, h3.read_unread, View.ld_unit_zero (S := S1x1x4096) hz3]

/-- At the last point of a group the class-sum scratch is updated as at a middle point. -/
private theorem scrS_C (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : ¬cond0_0 i) (hc1 : cond0_1 i) (x0 : Vec F S4096x512 .f32) (x1 : Vec F S1x1x4096 .i32) (xs0 : Vec F S1x512x512 .f32) (xs1 : Vec F S1x1x512 .f32) :
    sout0_C_0 c i a2 h2 a3 h3 a4 h4 a5 h5 a6 h6 a7 h7 hc0 hc1 x0 x1 xs0 xs1 = k0_pay4 x0 x1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h2.read_unread, h3.read_unread, h6.read_unread, View.ld_unit_zero (S := S4096x512) hz2,
    View.ld_unit_zero (S := S1x1x4096) hz3, View.ld_unit_zero (S := S1x512x512) hz3]

/-- At the last point of a group the class-count scratch is updated as at a middle point. -/
private theorem scrN_C (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : ¬cond0_0 i) (hc1 : cond0_1 i) (x0 : Vec F S4096x512 .f32) (x1 : Vec F S1x1x4096 .i32) (xs0 : Vec F S1x512x512 .f32) (xs1 : Vec F S1x1x512 .f32) :
    sout0_C_1 c i a2 h2 a3 h3 a4 h4 a5 h5 a6 h6 a7 h7 hc0 hc1 x0 x1 xs0 xs1 = k0_pay5 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz3]
  simp only [View.readAt_eq_ld, h3.read_unread, h7.read_unread,
    View.ld_unit_zero (S := S1x1x4096) hz3, View.ld_unit_zero (S := S1x1x512) hz3]

/-- At the last point of a group the class-sum output block is stored what the scratch holds after its update in the same
    run: the load reads back the payload of the covering store before it. -/
private theorem outS_C (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : ¬cond0_0 i) (hc1 : cond0_1 i) (x0 : Vec F S4096x512 .f32) (x1 : Vec F S1x1x4096 .i32) (xs0 : Vec F S1x512x512 .f32) (xs1 : Vec F S1x1x512 .f32) :
    out0_C_2 c i a2 h2 a3 h3 a4 h4 a5 h5 a6 h6 a7 h7 hc0 hc1 x0 x1 xs0 xs1 = k0_pay4 x0 x1 xs0 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3]
  simp only [View.readCov_unit_zero (S := S1x512x512) _ hz3, View.readAt_eq_ld, h2.read_unread, h3.read_unread, h6.read_unread,
    View.ld_unit_zero (S := S4096x512) hz2, View.ld_unit_zero (S := S1x1x4096) hz3, View.ld_unit_zero (S := S1x512x512) hz3]

/-- At the last point of a group the class-count output block is stored what the count scratch holds after its update. -/
private theorem outN_C (c : Dev nD) (i : grid0.Coords) (a2 : Memref sig .tc .vmem S4096x512 .f32) (h2 : a2.IsWhole) (a3 : Memref sig .tc .vmem S1x1x4096 .i32) (h3 : a3.IsWhole) (a4 : Memref sig .tc .vmem S1x512x512 .f32) (h4 : a4.IsWhole) (a5 : Memref sig .tc .vmem S1x1x512 .f32) (h5 : a5.IsWhole) (a6 : Memref sig .tc .vmem S1x512x512 .f32) (h6 : a6.IsWhole) (a7 : Memref sig .tc .vmem S1x1x512 .f32) (h7 : a7.IsWhole) (hc0 : ¬cond0_0 i) (hc1 : cond0_1 i) (x0 : Vec F S4096x512 .f32) (x1 : Vec F S1x1x4096 .i32) (xs0 : Vec F S1x512x512 .f32) (xs1 : Vec F S1x1x512 .f32) :
    out0_C_3 c i a2 h2 a3 h3 a4 h4 a5 h5 a6 h6 a7 h7 hc0 hc1 x0 x1 xs0 xs1 = k0_pay5 x1 xs1 := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3]
  simp only [View.readCov_unit_zero (S := S1x1x512) _ hz3, View.readAt_eq_ld, h3.read_unread, h7.read_unread,
    View.ld_unit_zero (S := S1x1x4096) hz3, View.ld_unit_zero (S := S1x1x512) hz3]

/-- The accumulators' defining equations, point by point. -/
theorem accS_zero (c : Dev nD) (h : 0 < cfg0.N) :
    accS m c 0 h = k0_pay4 (xblk m c ⟨0, h⟩) (lblk m c ⟨0, h⟩) k0_pay1 := rfl
theorem accN_zero (c : Dev nD) (h : 0 < cfg0.N) :
    accN m c 0 h = k0_pay5 (lblk m c ⟨0, h⟩) k0_pay2 := rfl
theorem accS_succ (c : Dev nD) (n : ℕ) (h : n + 1 < cfg0.N) :
    accS m c (n + 1) h = k0_pay4 (xblk m c ⟨n + 1, h⟩) (lblk m c ⟨n + 1, h⟩)
      (if (n + 1) % 8 = 0 then k0_pay1 else accS m c n (Nat.lt_of_succ_lt h)) := rfl
theorem accN_succ (c : Dev nD) (n : ℕ) (h : n + 1 < cfg0.N) :
    accN m c (n + 1) h = k0_pay5 (lblk m c ⟨n + 1, h⟩)
      (if (n + 1) % 8 = 0 then k0_pay2 else accN m c n (Nat.lt_of_succ_lt h)) := rfl

/-- After every point the two carried scratch buffers hold the accumulators. -/
theorem scratch_eq (c : Dev nD) : ∀ (n : ℕ) (h : n < cfg0.N),
    (outsAt0 m c n h).2.2.1 = accS m c n h ∧ (outsAt0 m c n h).2.2.2 = accN m c n h := by
  intro n
  induction n with
  | zero =>
    intro h
    have h0 : (⟨0, h⟩ : Fin cfg0.N).val % 8 = 0 := rfl
    have h1 : ¬(⟨0, h⟩ : Fin cfg0.N).val % 8 = 7 := show ¬(0 : ℕ) % 8 = 7 from by decide
    rw [accS_zero, accN_zero, outsAt0_A m c ⟨0, h⟩ h0 h1]
    dsimp only
    exact ⟨scrS_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun h' => h1 ((hcond0_1 ⟨0, h⟩).mp h')) (xblk m c ⟨0, h⟩) (lblk m c ⟨0, h⟩),
      scrN_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun h' => h1 ((hcond0_1 ⟨0, h⟩).mp h')) (xblk m c ⟨0, h⟩) (lblk m c ⟨0, h⟩)⟩
  | succ n ih =>
    intro h
    obtain ⟨ihS, ihN⟩ := ih (Nat.lt_of_succ_lt h)
    rw [accS_succ, accN_succ]
    by_cases h0 : (n + 1) % 8 = 0
    · have h1 : ¬(n + 1) % 8 = 7 := by omega
      rw [if_pos h0, if_pos h0, outsAt0_A m c ⟨n + 1, h⟩ h0 h1]
      dsimp only
      exact ⟨scrS_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun h' => h1 ((hcond0_1 ⟨n + 1, h⟩).mp h')) (xblk m c ⟨n + 1, h⟩) (lblk m c ⟨n + 1, h⟩),
        scrN_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun h' => h1 ((hcond0_1 ⟨n + 1, h⟩).mp h')) (xblk m c ⟨n + 1, h⟩) (lblk m c ⟨n + 1, h⟩)⟩
    · rw [if_neg h0, if_neg h0]
      by_cases h1 : (n + 1) % 8 = 7
      · rw [outsAt0_C m c ⟨n + 1, h⟩ h0 h1]
        dsimp only
        refine ⟨(scrS_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0 ((hcond0_0 ⟨n + 1, h⟩).mp h')) ((hcond0_1 ⟨n + 1, h⟩).mpr h1) (xblk m c ⟨n + 1, h⟩) (lblk m c ⟨n + 1, h⟩) _ _).trans ?_,
          (scrN_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0 ((hcond0_0 ⟨n + 1, h⟩).mp h')) ((hcond0_1 ⟨n + 1, h⟩).mpr h1) (xblk m c ⟨n + 1, h⟩) (lblk m c ⟨n + 1, h⟩) _ _).trans ?_⟩
        · exact congrArg (k0_pay4 (xblk m c ⟨n + 1, h⟩) (lblk m c ⟨n + 1, h⟩)) ihS
        · exact congrArg (k0_pay5 (lblk m c ⟨n + 1, h⟩)) ihN
      · rw [outsAt0_B m c ⟨n + 1, h⟩ h0 h1]
        dsimp only
        refine ⟨(scrS_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0 ((hcond0_0 ⟨n + 1, h⟩).mp h')) (fun h' => h1 ((hcond0_1 ⟨n + 1, h⟩).mp h')) (xblk m c ⟨n + 1, h⟩) (lblk m c ⟨n + 1, h⟩) _ _).trans ?_,
          (scrN_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0 ((hcond0_0 ⟨n + 1, h⟩).mp h')) (fun h' => h1 ((hcond0_1 ⟨n + 1, h⟩).mp h')) (xblk m c ⟨n + 1, h⟩) (lblk m c ⟨n + 1, h⟩) _ _).trans ?_⟩
        · exact congrArg (k0_pay4 (xblk m c ⟨n + 1, h⟩) (lblk m c ⟨n + 1, h⟩)) ihS
        · exact congrArg (k0_pay5 (lblk m c ⟨n + 1, h⟩)) ihN

/-- At the last point of a group the outputs' staging buffers hold the accumulators too. -/
theorem outputs_eq (c : Dev nD) (t : Fin cfg0.N) (h7 : t.val % 8 = 7) :
    (outsAt0 m c t.val t.isLt).1 = accS m c t.val t.isLt ∧ (outsAt0 m c t.val t.isLt).2.1 = accN m c t.val t.isLt := by
  obtain ⟨n, hn⟩ := t
  cases n with
  | zero => exact absurd h7 (show ¬(0 : ℕ) % 8 = 7 from by decide)
  | succ n =>
    have h1 : (n + 1) % 8 = 7 := h7
    have h0 : ¬(n + 1) % 8 = 0 := by omega
    obtain ⟨ihS, ihN⟩ := scratch_eq m c n (Nat.lt_of_succ_lt hn)
    dsimp only
    rw [accS_succ, accN_succ, if_neg h0, if_neg h0, outsAt0_C m c ⟨n + 1, hn⟩ h0 h1]
    dsimp only
    refine ⟨(outS_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h' => h0 ((hcond0_0 ⟨n + 1, hn⟩).mp h')) ((hcond0_1 ⟨n + 1, hn⟩).mpr h1) (xblk m c ⟨n + 1, hn⟩) (lblk m c ⟨n + 1, hn⟩) _ _).trans ?_,
      (outN_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h' => h0 ((hcond0_0 ⟨n + 1, hn⟩).mp h')) ((hcond0_1 ⟨n + 1, hn⟩).mpr h1) (xblk m c ⟨n + 1, hn⟩) (lblk m c ⟨n + 1, hn⟩) _ _).trans ?_⟩
    · exact congrArg (k0_pay4 (xblk m c ⟨n + 1, hn⟩) (lblk m c ⟨n + 1, hn⟩)) ihS
    · exact congrArg (k0_pay5 (lblk m c ⟨n + 1, hn⟩)) ihN

end Cert.KernelIdeal.Region

end
-- ==== Proof.RegionArray.lean ====
/-
  From the outputs' blocks to the result arrays, and the input blocks as parts of the argument arrays.

  Output block `p` of either result array is written back once, at the last point `8 p + 7` of group `p`, with the
  accumulator of that point; the two blocks cover the array. Input block `t` of the samples is rows
  `4096 t … 4096 t + 4095`, and input block `t` of the labels is row `t` of the 16 × 1 × 4096 label array.
-/
import proofs.«407749_j69217692942358_3_alg».proof.Proof.Region
import Idealize.ShloMosaic.Lib.ValueIdx

noncomputable section

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- Point `8 p + 7` is a grid point. -/
theorem last_lt (p : Fin 2) : 8 * p.val + 7 < cfg0.N := by
  have hN : cfg0.N = 16 := N_0
  have := p.isLt
  omega

/-- The block index of each window at the linear point `t`: the samples' and labels' blocks move with the point, the
    two results' blocks with the point's group `t / 8`; every other coordinate of a block index is zero. -/
theorem block_index : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0) :=
  (by decide +kernel : ∀ t : Fin grid0.N, _)

/-- The accumulators depend on the point's number only, not on the proof that it is a grid point; -/
theorem accS_congr (c : Dev nD) {n n' : ℕ} (h : n < cfg0.N) (h' : n' < cfg0.N) (e : n = n')
    {i j : S1x512x512.Idx} (eij : i = j) : accS m c n h i = accS m c n' h' j := by
  subst e; subst eij; rfl

theorem accN_congr (c : Dev nD) {n n' : ℕ} (h : n < cfg0.N) (h' : n' < cfg0.N) (e : n = n')
    {i j : S1x1x512.Idx} (eij : i = j) : accN m c n h i = accN m c n' h' j := by
  subst e; subst eij; rfl

/-! ## The class sums -/

/-- The class-sum array as one function of its index: entry `(p, a, d)` is entry `(0, a, d)` of the accumulator after
    the last point `8 p + 7` of group `p`. -/
def sumsG (c : Dev nD) : Vec F S2x512x512 .f32 :=
  fun i => accS m c (8 * (i 0).val + 7) (last_lt (i 0)) (ix3 0 (i 1) (i 2))

/-- What a last point of a group writes back is its block of that function. -/
theorem sums_flushed (c : Dev nD) (t : Fin cfg0.N) (hf : (cfg0.win 2).flush t = true) :
    (dats m 0 c).flushed 2 t = ((cfg0.win 2).blk t).view.read (Elt F) (sumsG m c) := by
  have h7 : t.val % 8 = 7 := (flush0_2 t).mp hf
  obtain ⟨-, -, ⟨e0, e1, e2⟩, -⟩ := block_index t
  show (cfg0.win 2).cut (grid0.coords t) ((dats m 0 c).after 2 t) = _
  rw [after0_2, (outputs_eq m c t h7).1]
  funext y
  rw [View.read_apply]
  have y0 : (y 0).val < 1 := (y 0).isLt
  show accS m c t.val t.isLt ((cfg0.win 2).xinj (grid0.coords t) y)
    = accS m c (8 * ((((cfg0.win 2).blk t).view.emb y) 0).val + 7) _
        (ix3 0 ((((cfg0.win 2).blk t).view.emb y) 1) ((((cfg0.win 2).blk t).view.emb y) 2))
  refine accS_congr m c _ _ ?_ ?_
  · show t.val = 8 * (win0_2.index t (0 : Fin 3) * 1 + 1 * (y 0).val) + 7
    rw [e0]; omega
  · funext a
    apply Fin.ext
    match a with
    | ⟨0, _⟩ => show (y 0).val = 0; omega
    | ⟨1, _⟩ => show (y 1).val = win0_2.index t (1 : Fin 3) * 512 + 1 * (y 1).val; rw [e1]; omega
    | ⟨2, _⟩ => show (y 2).val = win0_2.index t (2 : Fin 3) * 512 + 1 * (y 2).val; rw [e2]; omega

/-- An index of the class-sum array is in point `t`'s block iff each coordinate is in the block's range on its axis. -/
theorem mem_sums_blk (t : Fin cfg0.N) (i : S2x512x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v2_0).slice (win0_2.rect t)).set ↔ _
  rw [View.set_slice_whole, Rect.mem_set_unit]
  exact Iff.rfl

/-- The class-sum array after the region: block `p` is the accumulator after point `8 p + 7`. -/
theorem sums_array (c : Dev nD) (p : Fin 2) (a d : Fin 512) :
    ((dats m 0 c).arrAt 2 cfg0.N : Vec F S2x512x512 .f32) (ix3 p a d)
      = accS m c (8 * p.val + 7) (last_lt p) (ix3 0 a d) := by
  have hfin : (dats m 0 c).arrAt 2 cfg0.N = sumsG m c :=
    (dats m 0 c).arrAt_eq_of_cover 2 (sumsG m c) (sums_flushed m c) fun i => by
      have i0 : (i 0).val < 2 := (i 0).isLt
      have i1 : (i 1).val < 512 := (i 1).isLt
      have i2 : (i 2).val < 512 := (i 2).isLt
      obtain ⟨-, -, ⟨e0, e1, e2⟩, -⟩ := block_index ⟨8 * (i 0).val + 7, last_lt (i 0)⟩
      refine ⟨⟨8 * (i 0).val + 7, last_lt (i 0)⟩, (flush0_2 _).mpr (by show (8 * (i 0).val + 7) % 8 = 7; omega), ?_⟩
      rw [mem_sums_blk]
      intro a
      match a with
      | ⟨0, _⟩ => show win0_2.index _ (0 : Fin 3) * 1 ≤ (i 0).val ∧ (i 0).val < win0_2.index _ (0 : Fin 3) * 1 + 1; rw [e0]; dsimp only; omega
      | ⟨1, _⟩ => show win0_2.index _ (1 : Fin 3) * 512 ≤ (i 1).val ∧ (i 1).val < win0_2.index _ (1 : Fin 3) * 512 + 512; rw [e1]; omega
      | ⟨2, _⟩ => show win0_2.index _ (2 : Fin 3) * 512 ≤ (i 2).val ∧ (i 2).val < win0_2.index _ (2 : Fin 3) * 512 + 512; rw [e2]; omega
  rw [hfin]
  rfl

/-! ## The class counts -/

/-- The class-count array as one function of its index: entry `(p, 0, a)` is entry `(0, 0, a)` of the accumulator after
    the last point `8 p + 7` of group `p`. -/
def countsG (c : Dev nD) : Vec F S2x1x512 .f32 :=
  fun i => accN m c (8 * (i 0).val + 7) (last_lt (i 0)) (ix3 0 0 (i 2))

/-- What a last point of a group writes back is its block of that function. -/
theorem counts_flushed (c : Dev nD) (t : Fin cfg0.N) (hf : (cfg0.win 3).flush t = true) :
    (dats m 0 c).flushed 3 t = ((cfg0.win 3).blk t).view.read (Elt F) (countsG m c) := by
  have h7 : t.val % 8 = 7 := (flush0_3 t).mp hf
  obtain ⟨-, -, -, e0, e1, e2⟩ := block_index t
  show (cfg0.win 3).cut (grid0.coords t) ((dats m 0 c).after 3 t) = _
  rw [after0_3, (outputs_eq m c t h7).2]
  funext y
  rw [View.read_apply]
  have y0 : (y 0).val < 1 := (y 0).isLt
  have y1 : (y 1).val < 1 := (y 1).isLt
  show accN m c t.val t.isLt ((cfg0.win 3).xinj (grid0.coords t) y)
    = accN m c (8 * ((((cfg0.win 3).blk t).view.emb y) 0).val + 7) _
        (ix3 0 0 ((((cfg0.win 3).blk t).view.emb y) 2))
  refine accN_congr m c _ _ ?_ ?_
  · show t.val = 8 * (win0_3.index t (0 : Fin 3) * 1 + 1 * (y 0).val) + 7
    rw [e0]; omega
  · funext a
    apply Fin.ext
    match a with
    | ⟨0, _⟩ => show (y 0).val = 0; omega
    | ⟨1, _⟩ => show (y 1).val = 0; omega
    | ⟨2, _⟩ => show (y 2).val = win0_3.index t (2 : Fin 3) * 512 + 1 * (y 2).val; rw [e2]; omega

/-- An index of the class-count array is in point `t`'s block iff each coordinate is in the block's range on its axis. -/
theorem mem_counts_blk (t : Fin cfg0.N) (i : S2x1x512.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v2_1).slice (win0_3.rect t)).set ↔ _
  rw [View.set_slice_whole, Rect.mem_set_unit]
  exact Iff.rfl

/-- The class-count array after the region: block `p` is the accumulator after point `8 p + 7`. -/
theorem counts_array (c : Dev nD) (p : Fin 2) (a : Fin 512) :
    ((dats m 0 c).arrAt 3 cfg0.N : Vec F S2x1x512 .f32) (ix3 p 0 a)
      = accN m c (8 * p.val + 7) (last_lt p) (ix3 0 0 a) := by
  have hfin : (dats m 0 c).arrAt 3 cfg0.N = countsG m c :=
    (dats m 0 c).arrAt_eq_of_cover 3 (countsG m c) (counts_flushed m c) fun i => by
      have i0 : (i 0).val < 2 := (i 0).isLt
      have i1 : (i 1).val < 1 := (i 1).isLt
      have i2 : (i 2).val < 512 := (i 2).isLt
      obtain ⟨-, -, -, e0, e1, e2⟩ := block_index ⟨8 * (i 0).val + 7, last_lt (i 0)⟩
      refine ⟨⟨8 * (i 0).val + 7, last_lt (i 0)⟩, (flush0_3 _).mpr (by show (8 * (i 0).val + 7) % 8 = 7; omega), ?_⟩
      rw [mem_counts_blk]
      intro a
      match a with
      | ⟨0, _⟩ => show win0_3.index _ (0 : Fin 3) * 1 ≤ (i 0).val ∧ (i 0).val < win0_3.index _ (0 : Fin 3) * 1 + 1; rw [e0]; dsimp only; omega
      | ⟨1, _⟩ => show win0_3.index _ (1 : Fin 3) * 1 ≤ (i 1).val ∧ (i 1).val < win0_3.index _ (1 : Fin 3) * 1 + 1; rw [e1]; omega
      | ⟨2, _⟩ => show win0_3.index _ (2 : Fin 3) * 512 ≤ (i 2).val ∧ (i 2).val < win0_3.index _ (2 : Fin 3) * 512 + 512; rw [e2]; omega
  rw [hfin]
  rfl

/-- Row `k` of the samples' block at point `t` is row `4096 t + k` of the sample array. -/
theorem xblk_apply (c : Dev nD) (t : Fin cfg0.N) (k : Fin 4096) (d : Fin 512) :
    xblk m c t (ix2 k d)
      = (V m c main_arg0 : Vec F S65536x512 .f32)
          (ix2 ⟨t.val * 4096 + k.val, by have hN : cfg0.N = 16 := N_0; have := t.isLt; have := k.isLt; omega⟩ d) := by
  obtain ⟨⟨e0, e1⟩, -⟩ := block_index t
  unfold xblk iblk
  rw [View.read_apply]
  show V m c main_arg0 (((cfg0.win 0).blk t).view.emb (ix2 k d)) = V m c main_arg0 _
  congr 1
  funext a
  apply Fin.ext
  match a with
  | ⟨0, _⟩ => show win0_0.index t (0 : Fin 2) * 4096 + 1 * k.val = t.val * 4096 + k.val; rw [e0]; omega
  | ⟨1, _⟩ => show win0_0.index t (1 : Fin 2) * 512 + 1 * d.val = d.val; rw [e1]; omega

/-- Entry `k` of the labels' block at point `t` is entry `(t, 0, k)` of the label array as the region finds it. -/
theorem lblk_apply (c : Dev nD) (t : Fin cfg0.N) (k : Fin 4096) :
    lblk m c t (ix3 0 0 k)
      = (V m c main_v1 : Vec F S16x1x4096 .i32)
          (ix3 ⟨t.val, by have hN : cfg0.N = 16 := N_0; have := t.isLt; omega⟩ 0 k) := by
  obtain ⟨-, ⟨e0, e1, e2⟩, -⟩ := block_index t
  unfold lblk iblk
  rw [View.read_apply]
  show V m c main_v1 (((cfg0.win 1).blk t).view.emb (ix3 0 0 k)) = V m c main_v1 _
  congr 1
  funext a
  apply Fin.ext
  match a with
  | ⟨0, _⟩ => show win0_1.index t (0 : Fin 3) * 1 + 1 * 0 = t.val; rw [e0]; omega
  | ⟨1, _⟩ => show win0_1.index t (1 : Fin 3) * 1 + 1 * 0 = 0; rw [e1]
  | ⟨2, _⟩ => show win0_1.index t (2 : Fin 3) * 4096 + 1 * k.val = k.val; rw [e2]; omega

end Cert.KernelIdeal.Region

end
-- ==== Proof.Payload.lean ====
/-
  The kernel body's arithmetic read at an index, over the extended reals.

  At one grid point the body adds to the class-sum accumulator the product of the transposed one-hot matrix of the
  point's 4096 labels with the point's 4096 × 512 block of samples, and to the class-count accumulator the column sums
  of the one-hot matrix. Read at class `a` and feature `d`: the accumulator's entry plus the sum over the block's rows
  `k` of `hot (label k) a * x k d`, respectively of `hot (label k) a`. The reset values are zero.
-/
import proofs.«407749_j69217692942358_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The one-hot entry: 1 where the label word is the class number `a`, else 0. -/
def hot (w : BitVec 32) (a : Fin 512) : EReal := if w = BitVec.ofNat 32 a.val then 1 else 0

/-! ## Layout operations read at coordinates -/

section Layout
variable {α : Type}

/-- A `[1, 1, n]` array cast to `[1, n]` reads, at `(u, k)`, the operand at `(0, 0, k)`: both row-major positions
    are `k`. -/
theorem shapeCast_11a_1a_apply {n : ℕ} (x : (⟨3, ![1, 1, n]⟩ : Shape).Idx → α)
    (h : (⟨3, ![1, 1, n]⟩ : Shape).ShapeCasts ⟨2, ![1, n]⟩) (u : Fin 1) (k : Fin n) :
    shapeCast ⟨2, ![1, n]⟩ x h (ix2 u k) = x (ix3 (0 : Fin 1) (0 : Fin 1) k) :=
  shapeCast_apply x h _ _ (by
    have hu : u.val = 0 := by omega
    rw [Shape.rowMajor_val_three, Shape.rowMajor_val_two]
    show (0 * 1 + 0) * n + k.val = u.val * n + k.val
    rw [hu])

/-- A `[1, n]` array cast to `[1, 1, n]` reads, at `(u, v, k)`, the operand at `(0, k)`. -/
theorem shapeCast_1a_11a_apply {n : ℕ} (x : (⟨2, ![1, n]⟩ : Shape).Idx → α)
    (h : (⟨2, ![1, n]⟩ : Shape).ShapeCasts ⟨3, ![1, 1, n]⟩) (u v : Fin 1) (k : Fin n) :
    shapeCast ⟨3, ![1, 1, n]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show 0 * n + k.val = (u.val * 1 + v.val) * n + k.val
    rw [hu, hv])

/-- A column `[n, 1]` broadcast to `[n, m]` reads, at `(k, c)`, the column's entry `k`. -/
theorem broadcastTo_a1_ab_apply {n m : ℕ} (v : (⟨2, ![n, 1]⟩ : Shape).Idx → α)
    (h : (⟨2, ![n, 1]⟩ : Shape).Broadcasts ⟨2, ![n, m]⟩) (k : Fin n) (c : Fin m) :
    broadcastTo ⟨2, ![n, m]⟩ v h (ix2 k c) = v (ix2 k (0 : Fin 1)) := by
  refine broadcastTo_apply v h (ix2 k c) (ix2 k (0 : Fin 1)) fun ax => ?_
  match ax with
  | ⟨0, _⟩ =>
    show k.val = if n = 1 then 0 else k.val
    split
    · have := k.isLt; omega
    · rfl
  | ⟨1, _⟩ => rfl

end Layout

/-! ## The comparison of the class numbers with the labels -/

/-- The one-hot bit at row `k`, class `a`: the class number's word compared with row `k`'s label. -/
theorem pay3_apply (l : Vec Ideal S1x1x4096 .i32) (k : Fin 4096) (a : Fin 512) :
    k0_pay3 (F := Ideal) l (ix2 k a) = IntOp.cmpi .eq (BitVec.ofNat 32 a.val) (l (ix3 0 0 k)) := by
  unfold k0_pay3
  show IntOp.cmpi .eq (iota .tc S4096x512 32 [1] iota_S4096x512_d1_w32 (ix2 k a))
      (broadcastTo S4096x512 _ broadcasts_S4096x1_S4096x512 (ix2 k a)) = _
  rw [iota_single_apply, broadcastTo_a1_ab_apply, transpose_ix2_apply, shapeCast_11a_1a_apply]

/-! ## The one-hot entry from the comparison bit -/

/-- The comparison bit of the class number with a label, widened to a word and read as a signed integer, is the one-hot
    entry: the bit is 1 exactly where the words agree, and the words 1 and 0 read as the numbers 1 and 0. -/
theorem hot_of_bit (w : BitVec 32) (a : Fin 512) :
    (FloatOps.sitofp (F := Ideal) .f32 ((IntOp.cmpi .eq (BitVec.ofNat 32 a.val) w).setWidth 32) : EReal) = hot w a := by
  show (((((IntOp.cmpi .eq (BitVec.ofNat 32 a.val) w).setWidth 32).toInt : ℝ)) : EReal) = hot w a
  unfold hot
  by_cases h : w = BitVec.ofNat 32 a.val
  · have hb : IntOp.cmpi .eq (BitVec.ofNat 32 a.val) w = 1#1 := by rw [h]; simp [IntOp.cmpi]
    have h1 : ((1#1 : BitVec 1).setWidth 32).toInt = 1 := by decide
    rw [hb, if_pos h, h1]; simp
  · have hb : IntOp.cmpi .eq (BitVec.ofNat 32 a.val) w = 0#1 := by
      have hne : (BitVec.ofNat 32 a.val == w) = false := beq_eq_false_iff_ne.mpr fun e => h e.symm
      show BitVec.ofBool (BitVec.ofNat 32 a.val == w) = 0#1
      rw [hne]; rfl
    have h0 : ((0#1 : BitVec 1).setWidth 32).toInt = 0 := by decide
    rw [hb, if_neg h, h0]; simp

/-- The one-hot matrix as the body computes it (the comparison bits widened, then converted) at row `k`, class `a`. -/
theorem hotf_apply (l : Vec Ideal S1x1x4096 .i32) (k : Fin 4096) (a : Fin 512) :
    (sitofp .f32 (extui 32 (k0_pay3 (F := Ideal) l) natLt_1_32) : FVec Ideal S4096x512 .f32) (ix2 k a)
      = hot (l (ix3 0 0 k)) a := by
  show FloatOps.sitofp (F := Ideal) .f32 ((k0_pay3 (F := Ideal) l (ix2 k a)).setWidth 32) = _
  rw [pay3_apply]
  exact hot_of_bit _ _

/-! ## The sum over the rows -/

/-- The sum of a `4096 × 512` array over its rows, read at column `a`. -/
theorem laneSum_apply (src : FVec Ideal S4096x512 .f32) (h : S4096x512.Reduces [0] S512) (hφ : FKind.Formats .f32)
    (hacc : (0x00000000#32 : BitVec 32) = FKind.add.neutral .f32 hφ) (a : Fin 512) :
    multiReduction (F := Ideal) .add [0] S512 src 0x00000000#32 h hφ hacc (ix1 a) = ∑ k : Fin 4096, src (ix2 k a) := by
  refine (Ideal.multiReduction_add_single src _ h hφ hacc (ix1 a)).trans ?_
  refine Finset.sum_congr rfl fun k _ => congrArg src ?_
  funext c
  match c with
  | ⟨0, _⟩ => rfl
  | ⟨1, _⟩ => rfl

/-! ## The product of the transposed one-hot matrix with the samples -/

/-- On the left operand's contracted axis the operand index is the contraction index's one coordinate. -/
theorem lhs_contr_0 (i : S512x512.Idx) (q : dot_S4096x512_S4096x512_S512x512_0_0_1_1_n_n.contr.Idx) :
    (dot_S4096x512_S4096x512_S512x512_0_0_1_1_n_n.lhsIdx i q 0).val = (q ⟨0, by decide⟩).val :=
  dot_S4096x512_S4096x512_S512x512_0_0_1_1_n_n.lhsIdx_val_of_single rfl i q
/-- On the left operand's free axis the operand index is the output's row. -/
theorem lhs_contr_1 (i : S512x512.Idx) (q : dot_S4096x512_S4096x512_S512x512_0_0_1_1_n_n.contr.Idx) :
    (dot_S4096x512_S4096x512_S512x512_0_0_1_1_n_n.lhsIdx i q 1).val = (i 0).val := by
  unfold DotDims.lhsIdx
  rw [dif_neg (show ¬(1 : Fin S4096x512.rank) ∈ dot_S4096x512_S4096x512_S512x512_0_0_1_1_n_n.lhsBatch by decide), dif_pos (show (1 : Fin S4096x512.rank) ∈ dot_S4096x512_S4096x512_S512x512_0_0_1_1_n_n.lhsNonContracting by decide)]
  rfl
/-- On the right operand's contracted axis the operand index is the contraction index's one coordinate. -/
theorem rhs_contr_0 (i : S512x512.Idx) (q : dot_S4096x512_S4096x512_S512x512_0_0_1_1_n_n.contr.Idx) :
    (dot_S4096x512_S4096x512_S512x512_0_0_1_1_n_n.rhsIdx i q 0).val = (q ⟨0, by decide⟩).val :=
  dot_S4096x512_S4096x512_S512x512_0_0_1_1_n_n.rhsIdx_val_of_single rfl i q
/-- On the right operand's free axis the operand index is the output's column. -/
theorem rhs_contr_1 (i : S512x512.Idx) (q : dot_S4096x512_S4096x512_S512x512_0_0_1_1_n_n.contr.Idx) :
    (dot_S4096x512_S4096x512_S512x512_0_0_1_1_n_n.rhsIdx i q 1).val = (i 1).val := by
  unfold DotDims.rhsIdx
  rw [dif_neg (show ¬(1 : Fin S4096x512.rank) ∈ dot_S4096x512_S4096x512_S512x512_0_0_1_1_n_n.rhsBatch by decide), dif_pos (show (1 : Fin S4096x512.rank) ∈ dot_S4096x512_S4096x512_S512x512_0_0_1_1_n_n.rhsNonContracting by decide)]
  rfl

/-- The product contracted over the rows of both operands, into a zero accumulator, at `(a, d)`: the sum over the rows
    `k` of the left operand at `(k, a)` times the right at `(k, d)`. -/
theorem matmul_rows_apply (lhs rhs : FVec Ideal S4096x512 .bf16) (a d : Fin 512) :
    matmul (F := Ideal) dot_S4096x512_S4096x512_S512x512_0_0_1_1_n_n none lhs rhs (constant S512x512 .f32 0x00000000#32) (ix2 a d)
      = ∑ k : Fin 4096, lhs (ix2 k a) * rhs (ix2 k d) := by
  show FloatOps.matmul dot_S4096x512_S4096x512_S512x512_0_0_1_1_n_n none lhs rhs (constant S512x512 .f32 0x00000000#32) (ix2 a d) = _
  rw [Ideal.matmul_constant_zero_apply, ← Equiv.sum_comp (contrEquiv1 dot_S4096x512_S4096x512_S512x512_0_0_1_1_n_n 4096 rfl rfl).symm]
  refine Finset.sum_congr rfl fun k _ => ?_
  have hk := contrEquiv1_symm_val dot_S4096x512_S4096x512_S512x512_0_0_1_1_n_n 4096 rfl rfl k
  have el : dot_S4096x512_S4096x512_S512x512_0_0_1_1_n_n.lhsIdx (ix2 a d) ((contrEquiv1 dot_S4096x512_S4096x512_S512x512_0_0_1_1_n_n 4096 rfl rfl).symm k) = ix2 k a := funext fun c => Fin.ext (by
    match c with
    | ⟨0, _⟩ => exact (lhs_contr_0 _ _).trans hk
    | ⟨1, _⟩ => exact lhs_contr_1 _ _)
  have er : dot_S4096x512_S4096x512_S512x512_0_0_1_1_n_n.rhsIdx (ix2 a d) ((contrEquiv1 dot_S4096x512_S4096x512_S512x512_0_0_1_1_n_n 4096 rfl rfl).symm k) = ix2 k d := funext fun c => Fin.ext (by
    match c with
    | ⟨0, _⟩ => exact (rhs_contr_0 _ _).trans hk
    | ⟨1, _⟩ => exact rhs_contr_1 _ _)
  rw [el, er]

/-! ## The payloads -/

/-- The class-sum accumulator is reset to zero. -/
theorem pay1_apply (i : S1x512x512.Idx) : k0_pay1 (F := Ideal) i = 0 := by
  unfold k0_pay1
  exact Ideal.ofBits_zero_f32

/-- The class-count accumulator is reset to zero. -/
theorem pay2_apply (i : S1x1x512.Idx) : k0_pay2 (F := Ideal) i = 0 := by
  unfold k0_pay2
  exact Ideal.ofBits_zero_f32

/-- The class-sum update at class `a`, feature `d`. -/
theorem pay4_apply (x : Vec Ideal S4096x512 .f32) (l : Vec Ideal S1x1x4096 .i32) (acc : Vec Ideal S1x512x512 .f32)
    (a d : Fin 512) :
    k0_pay4 (F := Ideal) x l acc (ix3 0 a d)
      = acc (ix3 0 a d) + ∑ k : Fin 4096, hot (l (ix3 0 0 k)) a * x (ix2 k d) := by
  unfold k0_pay4
  refine (shapeCast_ab_1ab_apply _ _ 0 a d).trans ?_
  refine (addf_apply _ _ _).trans ?_
  refine congrArg₂ (· + ·) (shapeCast_1ab_ab_apply acc _ a d) ?_
  refine (matmul_rows_apply _ _ a d).trans ?_
  refine Finset.sum_congr rfl fun k _ => ?_
  -- a format change is the identity on the extended reals
  show (sitofp .f32 (extui 32 (k0_pay3 (F := Ideal) l) natLt_1_32) : FVec Ideal S4096x512 .f32) (ix2 k a) * x (ix2 k d) = _
  rw [hotf_apply]

/-- The class-count update at class `a`. -/
theorem pay5_apply (l : Vec Ideal S1x1x4096 .i32) (acc : Vec Ideal S1x1x512 .f32) (a : Fin 512) :
    k0_pay5 (F := Ideal) l acc (ix3 0 0 a) = acc (ix3 0 0 a) + ∑ k : Fin 4096, hot (l (ix3 0 0 k)) a := by
  unfold k0_pay5
  refine (shapeCast_1a_11a_apply _ _ 0 0 a).trans ?_
  refine (addf_apply _ _ _).trans ?_
  refine congrArg₂ (· + ·) (shapeCast_11a_1a_apply acc _ 0 a) ?_
  refine (shapeCast_a_1a_apply _ _ 0 a).trans ?_
  refine (laneSum_apply _ _ _ _ a).trans ?_
  exact Finset.sum_congr rfl fun k _ => hotf_apply l k a

end Cert.KernelIdeal.Payload

end
-- ==== Proof.HostPrefix.lean ====
/-
  The label array as the kernel's region finds it.

  Before the region the labels are clipped to [0, 511] (the larger of 0 and the label, then the smaller of 511 and
  that) and laid out as 16 rows of 4096. A label that is already a class number is its own clip, and entry `(q, 0, k)`
  of the laid-out array is label `4096 q + k`.
-/
import proofs.«407749_j69217692942358_3_alg».proof.Proof.Gen.KernelIdeal.Frame
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.HostPrefix

open Cert.KernelIdeal Cert.KernelIdeal.Gen
open Idealize.ShloMosaic Idealize.ShloMosaic.TcCoe Idealize.SL.Sem Idealize.ShloMosaic.ValueIdx

/-- One word: the larger of 0 and a word below 512, then the smaller of 511 and that, both read as signed words, is the
    word itself. A word below 512 is non-negative as a signed word and equals its value there, so neither comparison
    replaces it. -/
private theorem clip_word (w : BitVec 32) (hw : w.toNat < 512) :
    IntOp.minsi 511#32 (IntOp.maxsi 0#32 w) = w := by
  have hti : w.toInt = (w.toNat : Int) := StableHlo.Predicate.toInt_eq_toNat_of_lt (by omega)
  have h0 : (0#32 : BitVec 32).toInt = 0 := by decide
  have h511 : (511#32 : BitVec 32).toInt = 511 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h511, decide_eq_true_eq]; omega

/-- One entry of the clipped and laid-out array of any vector `x` of 65536 words below 512: position `(q, 0, k)` of the
    16 × 1 × 4096 layout and position `4096 q + k` of the flat vector are the same row-major position; there the two
    splat constants read 511 and 0, and the clip of the word is the word. -/
private theorem clip_reshape_apply (x : IVec S65536 32) (q : Fin 16) (k : Fin 4096)
    (hx : ∀ j : Fin 65536, (x (ix1 j)).toNat < 512) :
    shapeCast S16x1x4096 (minsi (broadcastInDim S65536 ![] bcast_S_S65536 (constantI S_ 32 511#32))
      (maxsi (broadcastInDim S65536 ![] bcast_S_S65536 (constantI S_ 32 0#32)) x)) shapeCasts_S65536_S16x1x4096 (ix3 q 0 k)
    = x (ix1 ⟨q.val * 4096 + k.val, by have := q.isLt; have := k.isLt; omega⟩) := by
  rw [shapeCast_apply _ _ (ix3 q 0 k) (ix1 ⟨q.val * 4096 + k.val, by have := q.isLt; have := k.isLt; omega⟩)
    (by rw [Shape.rowMajor_val_one, Shape.rowMajor_val_three]
        show q.val * 4096 + k.val = (q.val * 1 + 0) * 4096 + k.val
        omega)]
  show IntOp.minsi 511#32 (IntOp.maxsi 0#32 (x _)) = _
  exact clip_word _ (hx _)

variable {F : FTy → Type} [FloatOps F]
variable (m : (ℓ : Loc nD τ sig) → Buf (Elt F) ℓ)

/-- The label array the region finds is the operations' term of the launched labels: the constants 0 and 511 splat to
    65536 entries, the entrywise larger of 0 and the labels, the entrywise smaller of 511 and that, and the result laid
    out as 16 × 1 × 4096. -/
private theorem labels_term (c : Dev nD) :
    (V m c main_v1 : IVec S16x1x4096 32)
      = shapeCast S16x1x4096 (minsi (broadcastInDim S65536 ![] bcast_S_S65536 (constantI S_ 32 511#32))
          (maxsi (broadcastInDim S65536 ![] bcast_S_S65536 (constantI S_ 32 0#32))
            (m ((c : Thread nD τ).loc main_arg1) : IVec S65536 32))) shapeCasts_S65536_S16x1x4096 := by
  dsimp only [Gen.V, Gen.V0]
  simp only [Gen.hostOps0, Gen.hostOps0_1, Gen.hostOps0_2, List.flatten_cons, List.flatten_nil, List.append_nil,
    List.cons_append, List.nil_append]
  after_results
  rfl

/-- Entry `(q, 0, k)` of the label array the region finds is label `4096 q + k`, when that label is a class number. -/
theorem labels_staged (c : Dev nD) (q : Fin 16) (k : Fin 4096)
    (hlab : ∀ j : Fin 65536, ((m ((c : Thread nD τ).loc main_arg1) : IVec S65536 32) (ix1 j)).toNat < 512) :
    (V m c main_v1 : IVec S16x1x4096 32) (ix3 q 0 k)
      = (m ((c : Thread nD τ).loc main_arg1) : IVec S65536 32)
          (ix1 ⟨q.val * 4096 + k.val, by have := q.isLt; have := k.isLt; omega⟩) := by
  exact (congrFun (labels_term m c) (ix3 q 0 k)).trans (clip_reshape_apply _ q k hlab)

end Cert.KernelIdeal.HostPrefix

end
-- ==== Proof.Spec.lean ====
/-
  The contrastive scatter loss as a function of the sample matrix and of each sample's class.

  There are 65536 samples of 512 features and 512 classes. For a class `c` let `S c` be the sum of the samples of
  the class, `n c` their number and `tot` the sum of all samples. The mean of the class is `S c / n c`, the mean of
  the samples outside it `(tot - S c) / (65536 - n c)`; their distance is the Euclidean norm of the difference of the
  two means shifted by a small constant in every feature, and a class's hinge is the square of `max (1 - distance) 0`.

  One program forms the loss SAMPLE BY SAMPLE: the mean over the samples of the hinge of the sample's class
  (`lossPerSample`). The other forms it CLASS BY CLASS: the sum over the classes of the class's size times its hinge,
  divided by the number of samples, with both denominators replaced by 1 where they would be 0 (`lossPerClass`).
  The float constants are kept as the words the programs spell.
-/
import Idealize.ShloMosaic.PureOps.Ideal

noncomputable section

open scoped BigOperators

namespace ScatterLoss

open Idealize.ShloMosaic

/-- The word `1.0`. -/
abbrev one : EReal := Ideal.ofBits .f32 0x3F800000#32
/-- The word `65536.0`, the number of samples. -/
abbrev cnt : EReal := Ideal.ofBits .f32 0x47800000#32
/-- The word of the shift `1e-6` added to every feature of the difference of the two means. -/
abbrev eps : EReal := Ideal.ofBits .f32 0x358637BD#32

/-- A sample's class from its label word: the word's value, reduced below 512 so that the function is total (on a
    word in the label range it is the word's value). -/
def cls (lab : Fin 65536 → BitVec 32) (j : Fin 65536) : Fin 512 :=
  ⟨(lab j).toNat % 512, Nat.mod_lt _ (by norm_num)⟩

/-- Feature `d` of the sum of the samples of class `c`. -/
def classSum (x : Fin 65536 → Fin 512 → EReal) (ℓ : Fin 65536 → Fin 512) (c d : Fin 512) : EReal :=
  ∑ j, if ℓ j = c then x j d else 0

/-- The number of samples of class `c`. -/
def classCount (ℓ : Fin 65536 → Fin 512) (c : Fin 512) : EReal :=
  ∑ j, if ℓ j = c then (1 : EReal) else 0

/-- Feature `d` of the sum of all samples. -/
def colTotal (x : Fin 65536 → Fin 512 → EReal) (d : Fin 512) : EReal :=
  ∑ j, x j d

/-- Feature `d` of the shifted difference of the two means of class `c`, for class sums `S`, the total `tot` and the
    two denominators `a` (inside the class) and `b` (outside it). -/
def meanGap (S : Fin 512 → Fin 512 → EReal) (tot : Fin 512 → EReal) (a b : EReal) (c d : Fin 512) : EReal :=
  Ideal.div (S c d) a - Ideal.div (tot d - S c d) b + eps

/-- The distance of the two means of class `c`. -/
def dist (S : Fin 512 → Fin 512 → EReal) (tot : Fin 512 → EReal) (a b : EReal) (c : Fin 512) : EReal :=
  Ideal.sqrt (∑ d, meanGap S tot a b c d * meanGap S tot a b c d)

/-- The hinge of class `c`: the square of `max (1 - distance) 0`. -/
def hinge (S : Fin 512 → Fin 512 → EReal) (tot : Fin 512 → EReal) (a b : EReal) (c : Fin 512) : EReal :=
  max (one - dist S tot a b c) 0 * max (one - dist S tot a b c) 0

/-- The loss formed class by class, from the class sums `S` and the class sizes `n`: the total is the sum of the
    class sums, a denominator that would be 0 is 1, and a class weighs as many times as it has samples. -/
def lossPerClass (S : Fin 512 → Fin 512 → EReal) (n : Fin 512 → EReal) : EReal :=
  Ideal.div (∑ c, n c * hinge S (fun d => ∑ c', S c' d) (max (n c) one) (max (cnt - n c) one) c) cnt

/-- The loss formed sample by sample: sample `j` contributes the hinge of its class `g j`, with the class's size and
    the size of its complement as the denominators. -/
def lossPerSample (S : Fin 512 → Fin 512 → EReal) (n : Fin 512 → EReal) (tot : Fin 512 → EReal)
    (g : Fin 65536 → Fin 512) : EReal :=
  Ideal.div (∑ j, hinge S tot (n (g j)) (cnt - n (g j)) (g j)) cnt

/-- The samples are met in 2 × 8 blocks of 4096 rows: row `k` of block `(p, t)`. -/
def row (p : Fin 2) (t : Fin 8) (k : Fin 4096) : Fin 65536 :=
  ⟨(p.val * 8 + t.val) * 4096 + k.val, by have := p.isLt; have := t.isLt; have := k.isLt; omega⟩

end ScatterLoss

end
-- ==== Proof.HostTail.lean ====
/-
  The kernel program's result as the loss formed class by class, from the two arrays the region leaves.

  After the region the host sums the two partial class-sum tables and the two partial class-count rows, forms the total
  as the sum of the class sums, and from there the per-class means, distances and hinges with both denominators made
  at least 1, the count-weighted sum of the hinges and its quotient by the number of samples: `ScatterLoss.lossPerClass`
  of the summed tables.
-/
import proofs.«407749_j69217692942358_3_alg».proof.Proof.Gen.KernelIdeal.Frame
import proofs.«407749_j69217692942358_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.HostTail

open Cert.KernelIdeal Cert.KernelIdeal.Gen
open Idealize.ShloMosaic Idealize.ShloMosaic.TcCoe Idealize.SL.Sem Idealize.ShloMosaic.ValueIdx ScatterLoss

/-! ## The tail as a function of the two arrays, stage by stage -/

section Stages

variable (A2 : FVec Ideal S2x512x512 .f32) (A3 : FVec Ideal S2x1x512 .f32)

/-- The table of class sums: the two partial tables added. -/
def sums : FVec Ideal S512x512 .f32 :=
  Host.reduceAdd (F := Ideal) A2 (constant (F := Ideal) S_ .f32 0x00000000#32) reducesTo_S2x512x512_S512x512_d0 h_S_

/-- The row of class counts: the two partial rows added, as a vector. -/
def counts : FVec Ideal S512 .f32 := fun i =>
  shapeCast main_v5.ty.shape
    (Host.reduceAdd (F := Ideal) A3 (constant (F := Ideal) S_ .f32 0x00000000#32) reducesTo_S2x1x512_S1x512_d0 h_S_)
    shapeCasts_S1x512_S512 i

/-- The total: the class sums added over the classes. -/
def total : FVec Ideal S512 .f32 :=
  Host.reduceAdd (F := Ideal) (sums A2) (constant (F := Ideal) S_ .f32 0x00000000#32) reducesTo_S512x512_S512_d0 h_S_

/-- The denominator inside a class: its count, at least 1. -/
def denIn : FVec Ideal S512 .f32 :=
  maximumf (F := Ideal) (counts A3) (broadcastInDim S512 ![] bcast_S_S512 (constant (F := Ideal) S_ .f32 0x3F800000#32))

/-- The denominator outside a class: the number of samples less its count, at least 1. -/
def denOut : FVec Ideal S512 .f32 :=
  maximumf (F := Ideal)
    (subf (F := Ideal) (broadcastInDim S512 ![] bcast_S_S512 (constant (F := Ideal) S_ .f32 0x47800000#32)) (counts A3))
    (broadcastInDim S512 ![] bcast_S_S512 (constant (F := Ideal) S_ .f32 0x3F800000#32))

/-- The shifted difference of the two means, class by feature. -/
def gap : FVec Ideal S512x512 .f32 :=
  addf (F := Ideal)
    (subf (F := Ideal)
      (Host.divf (F := Ideal) (sums A2)
        (broadcastInDim S512x512 ![0, 1] bcast_S512x1_S512x512_0_1 (broadcastInDim S512x1 ![0] bcast_S512_S512x1_0 (denIn A3))))
      (Host.divf (F := Ideal)
        (subf (F := Ideal)
          (broadcastInDim S512x512 ![0, 1] bcast_S1x512_S512x512_0_1 (broadcastInDim S1x512 ![1] bcast_S512_S1x512_1 (total A2)))
          (sums A2))
        (broadcastInDim S512x512 ![0, 1] bcast_S512x1_S512x512_0_1 (broadcastInDim S512x1 ![0] bcast_S512_S512x1_0 (denOut A3)))))
    (broadcastInDim S512x512 ![] bcast_S_S512x512 (constant (F := Ideal) S_ .f32 0x358637BD#32))

/-- The squared norm of the difference, class by class. -/
def sqNorm : FVec Ideal S512 .f32 :=
  Host.reduceAdd (F := Ideal) (mulf (F := Ideal) (gap A2 A3) (gap A2 A3)) (constant (F := Ideal) S_ .f32 0x00000000#32)
    reducesTo_S512x512_S512_d1 h_S_

/-- The positive part of 1 less the distance, class by class. -/
def slack : FVec Ideal S512 .f32 :=
  maximumf (F := Ideal)
    (subf (F := Ideal) (broadcastInDim S512 ![] bcast_S_S512 (constant (F := Ideal) S_ .f32 0x3F800000#32))
      (Host.sqrt (F := Ideal) (sqNorm A2 A3)))
    (broadcastInDim S512 ![] bcast_S_S512 (constant (F := Ideal) S_ .f32 0x00000000#32))

/-- The count-weighted sum of the squared slacks. -/
def weighted : FVec Ideal S_ .f32 :=
  Host.reduceAdd (F := Ideal) (mulf (F := Ideal) (counts A3) (mulf (F := Ideal) (slack A2 A3) (slack A2 A3)))
    (constant (F := Ideal) S_ .f32 0x00000000#32) reducesTo_S512_S_d0 h_S_

/-- The whole tail: the weighted sum over the number of samples. -/
def tail : FVec Ideal S_ .f32 :=
  Host.divf (F := Ideal) (weighted A2 A3) (constant (F := Ideal) S_ .f32 0x47800000#32)

end Stages

/-! ## The tail's operations compute `tail` -/

set_option maxHeartbeats 1000000 in
/-- The operations after the region, run in order from any contents of the device's buffers, leave in the result
    buffer `tail` of what the two result arrays of the region hold. -/
theorem tail_term (W : Valuation τ sig (Elt Ideal)) :
    StableHlo.after (hostOps1 (F := Ideal)) W (Proc.devRef .tc main_v35)
      = tail (W (Proc.devRef .tc main_v2_0)) (W (Proc.devRef .tc main_v2_1)) := by
  after_results_simp
  rfl

/-! ## Reading the stages at an index -/

section Reads

variable (A2 : FVec Ideal S2x512x512 .f32) (A3 : FVec Ideal S2x1x512 .f32)

/-- The class sums the first array holds: its two partial tables added. -/
def classSums (a d : Fin 512) : EReal := ∑ p : Fin 2, A2 (ix3 p a d)

/-- The class counts the second array holds: its two partial rows added. -/
def classCounts (a : Fin 512) : EReal := ∑ p : Fin 2, A3 (ix3 p 0 a)

/-- A vector laid along the rows of the square table: entry `(a, d)` is the vector's entry `a`. -/
private theorem rows_apply {α : Type} (v : S512.Idx → α) (a d : Fin 512) :
    broadcastInDim S512x512 ![0, 1] bcast_S512x1_S512x512_0_1 (broadcastInDim S512x1 ![0] bcast_S512_S512x1_0 v) (ix2 a d)
      = v (ix1 a) := by
  refine (broadcastInDim_apply ![0, 1] bcast_S512x1_S512x512_0_1 _ (ix2 a d) (ix2 a (0 : Fin 1)) fun x => ?_).trans
    (broadcastInDim_apply ![0] bcast_S512_S512x1_0 v (ix2 a (0 : Fin 1)) (ix1 a) fun x => ?_)
  · match x with
    | ⟨0, _⟩ => show a.val = if (512 : Nat) = 1 then 0 else a.val; rw [if_neg (by decide)]
    | ⟨1, _⟩ => show (0 : Nat) = if (1 : Nat) = 1 then 0 else d.val; rw [if_pos rfl]
  · match x with
    | ⟨0, _⟩ => show a.val = if (512 : Nat) = 1 then 0 else a.val; rw [if_neg (by decide)]

/-- A vector laid along the columns: entry `(a, d)` is the vector's entry `d`. -/
private theorem cols_apply {α : Type} (v : S512.Idx → α) (a d : Fin 512) :
    broadcastInDim S512x512 ![0, 1] bcast_S1x512_S512x512_0_1 (broadcastInDim S1x512 ![1] bcast_S512_S1x512_1 v) (ix2 a d)
      = v (ix1 d) := by
  refine (broadcastInDim_apply ![0, 1] bcast_S1x512_S512x512_0_1 _ (ix2 a d) (ix2 (0 : Fin 1) d) fun x => ?_).trans
    (broadcastInDim_apply ![1] bcast_S512_S1x512_1 v (ix2 (0 : Fin 1) d) (ix1 d) fun x => ?_)
  · match x with
    | ⟨0, _⟩ => show (0 : Nat) = if (1 : Nat) = 1 then 0 else a.val; rw [if_pos rfl]
    | ⟨1, _⟩ => show d.val = if (512 : Nat) = 1 then 0 else d.val; rw [if_neg (by decide)]
  · match x with
    | ⟨0, _⟩ => show d.val = if (512 : Nat) = 1 then 0 else d.val; rw [if_neg (by decide)]

/-- Entry `(a, d)` of the summed table. -/
theorem sums_apply (a d : Fin 512) : sums A2 (ix2 a d) = classSums A2 a d := by
  have h : S2x512x512.Reduces [0] S512x512 := by decide
  unfold sums classSums
  simp only [Host.reduceAdd, Ideal.hostReduceAdd_def]
  rw [Ideal.hostReduceAdd_single reducesTo_S2x512x512_S512x512_d0 h]
  show Ideal.ofBits .f32 0x00000000#32 + _ = _
  rw [Ideal.ofBits_zero_f32, zero_add]
  refine Finset.sum_congr rfl fun p _ => congrArg A2 (funext fun x => Fin.ext ?_)
  match x with
  | ⟨0, _⟩ => rfl
  | ⟨1, _⟩ => rfl
  | ⟨2, _⟩ => rfl

/-- Entry `a` of the summed counts. -/
theorem counts_apply (a : Fin 512) : counts A3 (ix1 a) = classCounts A3 a := by
  have h : S2x1x512.Reduces [0] S1x512 := by decide
  unfold counts classCounts
  refine (shapeCast_apply _ shapeCasts_S1x512_S512 (ix1 a) (ix2 (0 : Fin 1) a) ?_).trans ?_
  · rw [Shape.rowMajor_val_two, Shape.rowMajor_val_one]
    show 0 * 512 + a.val = a.val
    omega
  simp only [Host.reduceAdd, Ideal.hostReduceAdd_def]
  rw [Ideal.hostReduceAdd_single reducesTo_S2x1x512_S1x512_d0 h]
  show Ideal.ofBits .f32 0x00000000#32 + _ = _
  rw [Ideal.ofBits_zero_f32, zero_add]
  refine Finset.sum_congr rfl fun p _ => congrArg A3 (funext fun x => Fin.ext ?_)
  match x with
  | ⟨0, _⟩ => rfl
  | ⟨1, _⟩ => rfl
  | ⟨2, _⟩ => rfl

/-- Entry `d` of the total: the class sums added over the classes. -/
theorem total_apply (d : Fin 512) : total A2 (ix1 d) = ∑ c' : Fin 512, classSums A2 c' d := by
  have h : S512x512.Reduces [0] S512 := by decide
  unfold total
  simp only [Host.reduceAdd, Ideal.hostReduceAdd_def]
  rw [Ideal.hostReduceAdd_single reducesTo_S512x512_S512_d0 h]
  show Ideal.ofBits .f32 0x00000000#32 + _ = _
  rw [Ideal.ofBits_zero_f32, zero_add]
  refine Finset.sum_congr rfl fun (c' : Fin 512) _ => ?_
  have e : h.lift (ix1 d) c' = ix2 c' d := funext fun x => Fin.ext (by
    match x with
    | ⟨0, _⟩ => rfl
    | ⟨1, _⟩ => rfl)
  rw [e]
  exact sums_apply A2 c' d

/-- The two denominators at a class. -/
theorem denIn_apply (a : Fin 512) : denIn A3 (ix1 a) = max (classCounts A3 a) one := by
  show max (counts A3 (ix1 a)) (Ideal.ofBits .f32 0x3F800000#32) = _
  rw [counts_apply]
theorem denOut_apply (a : Fin 512) : denOut A3 (ix1 a) = max (cnt - classCounts A3 a) one := by
  show max (Ideal.ofBits .f32 0x47800000#32 - counts A3 (ix1 a)) (Ideal.ofBits .f32 0x3F800000#32) = _
  rw [counts_apply]

end Reads

section Reads2

variable (A2 : FVec Ideal S2x512x512 .f32) (A3 : FVec Ideal S2x1x512 .f32)

/-- Entry `(a, d)` of the shifted difference of the two means. -/
theorem gap_apply (a d : Fin 512) :
    gap A2 A3 (ix2 a d)
      = meanGap (classSums A2) (fun d => ∑ c', classSums A2 c' d) (max (classCounts A3 a) one)
          (max (cnt - classCounts A3 a) one) a d := by
  show Ideal.div (sums A2 (ix2 a d))
        (broadcastInDim S512x512 ![0, 1] bcast_S512x1_S512x512_0_1 (broadcastInDim S512x1 ![0] bcast_S512_S512x1_0 (denIn A3)) (ix2 a d))
      - Ideal.div
          (broadcastInDim S512x512 ![0, 1] bcast_S1x512_S512x512_0_1 (broadcastInDim S1x512 ![1] bcast_S512_S1x512_1 (total A2)) (ix2 a d)
            - sums A2 (ix2 a d))
          (broadcastInDim S512x512 ![0, 1] bcast_S512x1_S512x512_0_1 (broadcastInDim S512x1 ![0] bcast_S512_S512x1_0 (denOut A3)) (ix2 a d))
      + Ideal.ofBits .f32 0x358637BD#32 = _
  rw [rows_apply, rows_apply, cols_apply, sums_apply, total_apply, denIn_apply, denOut_apply]
  rfl

/-- Entry `a` of the squared norm. -/
theorem sqNorm_apply (a : Fin 512) :
    sqNorm A2 A3 (ix1 a)
      = ∑ d : Fin 512,
          meanGap (classSums A2) (fun d => ∑ c', classSums A2 c' d) (max (classCounts A3 a) one)
              (max (cnt - classCounts A3 a) one) a d
            * meanGap (classSums A2) (fun d => ∑ c', classSums A2 c' d) (max (classCounts A3 a) one)
              (max (cnt - classCounts A3 a) one) a d := by
  have h : S512x512.Reduces [1] S512 := by decide
  unfold sqNorm
  simp only [Host.reduceAdd, Ideal.hostReduceAdd_def]
  rw [Ideal.hostReduceAdd_single reducesTo_S512x512_S512_d1 h]
  show Ideal.ofBits .f32 0x00000000#32 + _ = _
  rw [Ideal.ofBits_zero_f32, zero_add]
  refine Finset.sum_congr rfl fun (d : Fin 512) _ => ?_
  have e : h.lift (ix1 a) d = ix2 a d := funext fun x => Fin.ext (by
    match x with
    | ⟨0, _⟩ => rfl
    | ⟨1, _⟩ => rfl)
  rw [e]
  show gap A2 A3 (ix2 a d) * gap A2 A3 (ix2 a d) = _
  rw [gap_apply]

/-- Entry `a` of the slack: the positive part of 1 less the distance of the two means. -/
theorem slack_apply (a : Fin 512) :
    slack A2 A3 (ix1 a)
      = max (one - dist (classSums A2) (fun d => ∑ c', classSums A2 c' d) (max (classCounts A3 a) one)
          (max (cnt - classCounts A3 a) one) a) 0 := by
  show max (Ideal.ofBits .f32 0x3F800000#32 - Ideal.sqrt (sqNorm A2 A3 (ix1 a))) (Ideal.ofBits .f32 0x00000000#32) = _
  rw [sqNorm_apply, Ideal.ofBits_zero_f32]
  rfl

/-- A vector's index set is its one coordinate's range … -/
private def idxEquiv1 : S512.Idx ≃ Fin 512 where
  toFun i := i 0
  invFun a := ix1 a
  left_inv i := (eq_ix1 i).symm
  right_inv _ := rfl

/-- … so a sum over it is the sum over the coordinate. -/
private theorem sum_idx1 (f : S512.Idx → EReal) : ∑ i, f i = ∑ a : Fin 512, f (ix1 a) :=
  (Equiv.sum_comp idxEquiv1.symm f).symm

/-- The weighted sum: over the classes, the count times the hinge. -/
theorem weighted_apply (j : S_.Idx) :
    weighted A2 A3 j
      = ∑ c : Fin 512, classCounts A3 c
          * hinge (classSums A2) (fun d => ∑ c', classSums A2 c' d) (max (classCounts A3 c) one)
              (max (cnt - classCounts A3 c) one) c := by
  unfold weighted
  simp only [Host.reduceAdd, Ideal.hostReduceAdd_def]
  rw [Ideal.hostReduceAdd_total reducesTo_S512_S_d0 (fun b => b.elim0)]
  show Ideal.ofBits .f32 0x00000000#32 + _ = _
  rw [Ideal.ofBits_zero_f32, zero_add, sum_idx1]
  refine Finset.sum_congr rfl fun (c : Fin 512) _ => ?_
  show counts A3 (ix1 c) * (slack A2 A3 (ix1 c) * slack A2 A3 (ix1 c)) = _
  rw [counts_apply, slack_apply]
  rfl

/-- THE TAIL AT THE IDEAL VALUES: the loss formed class by class from the summed tables. -/
theorem tail_eq : tail A2 A3 = fun _ => lossPerClass (classSums A2) (classCounts A3) := by
  funext j
  show Ideal.div (weighted A2 A3 j) (Ideal.ofBits .f32 0x47800000#32) = _
  rw [weighted_apply]
  rfl

end Reads2

/-! ## The result -/

variable (m : (ℓ : Loc nD τ sig) → Buf (Elt Ideal) ℓ)

/-- THE KERNEL PROGRAM'S RESULT from the region's two result arrays: the loss formed class by class over the sums, over
    the two groups, of the partial class sums and of the partial class counts. -/
theorem tail_value (c : Dev nD) :
    Pipeline.afterTail₀ cfgs (dats m) 0 (V0 m) [hostOps1] c main_v35 = fun _ =>
      lossPerClass
        (fun a d => ∑ p : Fin 2, ((dats m 0 c).arrAt 2 cfg0.N : FVec Ideal S2x512x512 .f32) (ix3 p a d))
        (fun a => ∑ p : Fin 2, ((dats m 0 c).arrAt 3 cfg0.N : FVec Ideal S2x1x512 .f32) (ix3 p 0 a)) := by
  -- what the region leaves at its two result arrays
  have e2 : Pipeline.withArrays spec0 c (V0 m c) (fun w => (dats m 0 c).arrAt w cfg0.N) (Proc.devRef .tc main_v2_0)
      = (dats m 0 c).arrAt 2 cfg0.N :=
    Pipeline.withArrays_arr spec0 launch0.win.arr_inj c _ _ 2
  have e3 : Pipeline.withArrays spec0 c (V0 m c) (fun w => (dats m 0 c).arrAt w cfg0.N) (Proc.devRef .tc main_v2_1)
      = (dats m 0 c).arrAt 3 cfg0.N :=
    Pipeline.withArrays_arr spec0 launch0.win.arr_inj c _ _ 3
  unfold Pipeline.afterTail₀
  show StableHlo.after hostOps1 _ (Proc.devRef .tc main_v35) = _
  refine (tail_term _).trans ?_
  exact (congr (congrArg tail e2) e3).trans (tail_eq _ _)

end Cert.KernelIdeal.HostTail

end
-- ==== Proof.SpecLaws.lean ====
/-
  Laws of the scatter loss: the values of the constant words, the blocked enumeration of the samples, and the
  equality of the loss formed class by class with the loss formed sample by sample.
-/
import proofs.«407749_j69217692942358_3_alg».proof.Proof.Spec
import Mathlib.Algebra.BigOperators.Fin
import Mathlib.Algebra.BigOperators.Group.Finset.Basic
import Mathlib.Data.EReal.Operations
import Mathlib.Data.Fintype.BigOperators

noncomputable section

open scoped BigOperators

namespace ScatterLoss

open Idealize.ShloMosaic

/-- The word `1.0` denotes 1. -/
theorem one_eq : one = 1 := by
  show Ideal.ofBits .f32 0x3F800000#32 = 1
  simp [Ideal.ofBits, Ideal.ieee, -EReal.coe_mul]; norm_num

/-- The word `65536.0` denotes 65536. -/
theorem cnt_eq : cnt = ((65536 : ℝ) : EReal) := by
  show Ideal.ofBits .f32 0x47800000#32 = ((65536 : ℝ) : EReal)
  simp [Ideal.ofBits, Ideal.ieee, -EReal.coe_mul]; norm_num

/-- The blocked enumeration as a bijection: sample `j` is row `j % 4096` of block
    `(j / 32768, (j / 4096) % 8)`. -/
private def rowEquiv : Fin 2 × Fin 8 × Fin 4096 ≃ Fin 65536 where
  toFun q := row q.1 q.2.1 q.2.2
  invFun j :=
    (⟨j.val / 32768, by have := j.isLt; omega⟩, ⟨(j.val / 4096) % 8, by omega⟩,
      ⟨j.val % 4096, by omega⟩)
  left_inv := by
    rintro ⟨p, t, k⟩
    have hp := p.isLt
    have ht := t.isLt
    have hk := k.isLt
    simp only [row, Prod.mk.injEq, Fin.ext_iff]
    refine ⟨?_, ?_, ?_⟩ <;> omega
  right_inv := by
    intro j
    have hj := j.isLt
    simp only [row, Fin.ext_iff]
    omega

/-- Every sample is row `k` of exactly one block `(p, t)`: a sum over the samples is the sum over the blocks of the
    sums over their rows. -/
theorem sum_rows {A : Type*} [AddCommMonoid A] (f : Fin 65536 → A) :
    ∑ p : Fin 2, ∑ t : Fin 8, ∑ k : Fin 4096, f (row p t k) = ∑ j, f j := by
  rw [← Fintype.sum_equiv rowEquiv (fun q => f (row q.1 q.2.1 q.2.2)) f (fun _ => rfl)]
  rw [Fintype.sum_prod_type]
  refine Finset.sum_congr rfl fun p _ => ?_
  rw [Fintype.sum_prod_type]

/-- The class sums add up to the total: every sample is in exactly one class. -/
theorem sum_classSum (x : Fin 65536 → Fin 512 → EReal) (ℓ : Fin 65536 → Fin 512) (d : Fin 512) :
    ∑ c, classSum x ℓ c d = colTotal x d := by
  unfold classSum colTotal
  rw [Finset.sum_comm]
  refine Finset.sum_congr rfl fun j _ => ?_
  rw [Finset.sum_ite_eq]
  simp

/-- The size of a class is the number of its samples. -/
private theorem classCount_eq_card (ℓ : Fin 65536 → Fin 512) (c : Fin 512) :
    classCount ℓ c = (((Finset.univ.filter fun j => ℓ j = c).card : ℕ) : EReal) := by
  unfold classCount
  rw [Finset.sum_ite, Finset.sum_const_zero, add_zero, Finset.sum_const, nsmul_one]

/-- A class with a sample in it has at least one sample: the denominator inside the class is the class's size. -/
private theorem max_count_one (ℓ : Fin 65536 → Fin 512) (j : Fin 65536) :
    max (classCount ℓ (ℓ j)) one = classCount ℓ (ℓ j) := by
  rw [classCount_eq_card, one_eq]
  apply max_eq_left
  have h : 1 ≤ (Finset.univ.filter fun i => ℓ i = ℓ j).card :=
    Finset.card_pos.2 ⟨j, Finset.mem_filter.2 ⟨Finset.mem_univ j, rfl⟩⟩
  have h' : ((1 : ℕ) : EReal) ≤ (((Finset.univ.filter fun i => ℓ i = ℓ j).card : ℕ) : EReal) :=
    EReal.natCast_le_iff.2 h
  rwa [Nat.cast_one] at h'

/-- A class that misses a sample has at most 65535 samples: the denominator outside the class is the size of the
    complement. -/
private theorem max_compl_one (ℓ : Fin 65536 → Fin 512) (c : Fin 512) (hc : ∃ j, ℓ j ≠ c) :
    max (cnt - classCount ℓ c) one = cnt - classCount ℓ c := by
  obtain ⟨j, hj⟩ := hc
  rw [classCount_eq_card, one_eq, cnt_eq]
  apply max_eq_left
  have hlt : (Finset.univ.filter fun i => ℓ i = c).card < 65536 := by
    have h1 : (Finset.univ.filter fun i => ℓ i = c) ⊂ (Finset.univ : Finset (Fin 65536)) := by
      refine Finset.ssubset_iff_subset_ne.2 ⟨Finset.filter_subset _ _, ?_⟩
      intro h
      have : j ∈ Finset.univ.filter fun i => ℓ i = c := by rw [h]; exact Finset.mem_univ j
      exact hj (Finset.mem_filter.1 this).2
    have h2 := Finset.card_lt_card h1
    rwa [Finset.card_univ, Fintype.card_fin] at h2
  have hr : ((Finset.univ.filter fun i => ℓ i = c).card : ℝ) ≤ 65535 := by exact_mod_cast Nat.lt_succ_iff.1 hlt
  rw [← EReal.coe_coe_eq_natCast, ← EReal.coe_sub, ← EReal.coe_one, EReal.coe_le_coe_iff]
  linarith

/-- THE TWO FORMS OF THE LOSS AGREE when no class holds every sample. -/
theorem perClass_eq_perSample (x : Fin 65536 → Fin 512 → EReal) (ℓ : Fin 65536 → Fin 512)
    (hne : ∀ c : Fin 512, ∃ j, ℓ j ≠ c) :
    lossPerClass (classSum x ℓ) (classCount ℓ)
      = lossPerSample (classSum x ℓ) (classCount ℓ) (colTotal x) ℓ := by
  unfold lossPerClass lossPerSample
  -- the total formed from the class sums is the total of the samples
  have htot : (fun d => ∑ c', classSum x ℓ c' d) = colTotal x := funext fun d => sum_classSum x ℓ d
  rw [htot]
  refine congrArg (fun s => Ideal.div s cnt) ?_
  -- the hinge of a class with its two guarded denominators
  set H : Fin 512 → EReal := fun c =>
    hinge (classSum x ℓ) (colTotal x) (max (classCount ℓ c) one) (max (cnt - classCount ℓ c) one) c with hH
  -- a sample's summand is the hinge of its class: neither guard is active there
  have hs : ∀ j, hinge (classSum x ℓ) (colTotal x) (classCount ℓ (ℓ j)) (cnt - classCount ℓ (ℓ j)) (ℓ j)
      = H (ℓ j) := by
    intro j
    simp only [hH, max_count_one ℓ j, max_compl_one ℓ (ℓ j) (hne (ℓ j))]
  rw [Finset.sum_congr rfl fun j _ => hs j]
  -- group the samples by their class
  rw [← Finset.sum_fiberwise (Finset.univ : Finset (Fin 65536)) ℓ (fun j => H (ℓ j))]
  refine Finset.sum_congr rfl fun c _ => ?_
  rw [Finset.sum_congr rfl (fun j hj => by rw [(Finset.mem_filter.1 hj).2] :
      ∀ j ∈ Finset.univ.filter (fun j => ℓ j = c), H (ℓ j) = H c)]
  rw [Finset.sum_const, EReal.nsmul_eq_mul, ← classCount_eq_card, hH]

end ScatterLoss

end
-- ==== Proof.KernelValue.lean ====
/-
  The kernel program's result as the loss formed class by class over the class sums and class counts of the samples.

  The region's accumulator after the last point of group `p` is the sum, over the eight points of the group, of the
  point's block sum: at class `a` and feature `d` the sum over the block's rows of `hot (label) a * sample`. Row `k` of
  the block at point `8 p + t` is sample `(8 p + t) · 4096 + k`, so the sum over the two groups is the sum over all
  samples, and with every label a class number `hot (label j) a` is 1 exactly when sample `j` is of class `a`: the
  class sum, respectively the class count.
-/
import proofs.«407749_j69217692942358_3_alg».proof.Proof.Region
import proofs.«407749_j69217692942358_3_alg».proof.Proof.RegionArray
import proofs.«407749_j69217692942358_3_alg».proof.Proof.Payload
import proofs.«407749_j69217692942358_3_alg».proof.Proof.HostPrefix
import proofs.«407749_j69217692942358_3_alg».proof.Proof.HostTail
import proofs.«407749_j69217692942358_3_alg».proof.Proof.Spec
import proofs.«407749_j69217692942358_3_alg».proof.Proof.SpecLaws

noncomputable section

open scoped BigOperators

namespace Cert.KernelIdeal.KernelValue

open Cert.KernelIdeal Cert.KernelIdeal.Gen Cert.KernelIdeal.Region Cert.KernelIdeal.Payload
open Idealize.ShloMosaic Idealize.ShloMosaic.TcCoe Idealize.SL.Sem Idealize.ShloMosaic.ValueIdx ScatterLoss

variable (m : (ℓ : Loc nD τ sig) → Buf (Elt Ideal) ℓ)

/-- The samples at launch, by sample and feature. -/
abbrev X (c : Dev nD) : Fin 65536 → Fin 512 → EReal :=
  fun j d => (m ((c : Thread nD τ).loc main_arg0) : FVec Ideal S65536x512 .f32) (ix2 j d)

/-- The label words at launch, by sample. -/
abbrev L (c : Dev nD) : Fin 65536 → BitVec 32 :=
  fun j => (m ((c : Thread nD τ).loc main_arg1) : IVec S65536 32) (ix1 j)

/-- The partial class-sum tables the region leaves. -/
abbrev A2 (c : Dev nD) : FVec Ideal S2x512x512 .f32 := (dats m 0 c).arrAt 2 cfg0.N
/-- The partial class-count rows the region leaves. -/
abbrev A3 (c : Dev nD) : FVec Ideal S2x1x512 .f32 := (dats m 0 c).arrAt 3 cfg0.N

/-- The class-sum contribution of the block at point `n` (zero beyond the grid). -/
def blockS (c : Dev nD) (n : ℕ) (a d : Fin 512) : EReal :=
  if h : n < cfg0.N then ∑ k : Fin 4096, hot (lblk m c ⟨n, h⟩ (ix3 0 0 k)) a * xblk m c ⟨n, h⟩ (ix2 k d) else 0

/-- The class-count contribution of the block at point `n`. -/
def blockN (c : Dev nD) (n : ℕ) (a : Fin 512) : EReal :=
  if h : n < cfg0.N then ∑ k : Fin 4096, hot (lblk m c ⟨n, h⟩ (ix3 0 0 k)) a else 0

/-- At a group's first point the class-sum accumulator is the update of the reset value. -/
theorem accS_reset (c : Dev nD) : ∀ (n : ℕ) (h : n < cfg0.N), n % 8 = 0 →
    accS m c n h = k0_pay4 (xblk m c ⟨n, h⟩) (lblk m c ⟨n, h⟩) (k0_pay1 (F := Ideal))
  | 0, _, _ => rfl
  | n + 1, h, h8 => by simp only [accS, if_pos h8]

/-- At the other points it is the update of what the point before left. -/
theorem accS_step (c : Dev nD) (n : ℕ) (h : n + 1 < cfg0.N) (h8 : ¬(n + 1) % 8 = 0) :
    accS m c (n + 1) h = k0_pay4 (xblk m c ⟨n + 1, h⟩) (lblk m c ⟨n + 1, h⟩) (accS m c n (Nat.lt_of_succ_lt h)) := by
  simp only [accS, if_neg h8]

theorem accN_reset (c : Dev nD) : ∀ (n : ℕ) (h : n < cfg0.N), n % 8 = 0 →
    accN m c n h = k0_pay5 (lblk m c ⟨n, h⟩) (k0_pay2 (F := Ideal))
  | 0, _, _ => rfl
  | n + 1, h, h8 => by simp only [accN, if_pos h8]

theorem accN_step (c : Dev nD) (n : ℕ) (h : n + 1 < cfg0.N) (h8 : ¬(n + 1) % 8 = 0) :
    accN m c (n + 1) h = k0_pay5 (lblk m c ⟨n + 1, h⟩) (accN m c n (Nat.lt_of_succ_lt h)) := by
  simp only [accN, if_neg h8]

/-- Within group `p` the class-sum accumulator after the group's point `s` is the sum of the block sums of the
    group's points up to `s`. -/
theorem accS_apply (c : Dev nD) (p : Fin 2) (a d : Fin 512) : ∀ (s : ℕ) (hs : s < 8) (h : 8 * p.val + s < cfg0.N),
    accS m c (8 * p.val + s) h (ix3 0 a d) = ∑ t ∈ Finset.range (s + 1), blockS m c (8 * p.val + t) a d
  | 0, _, h => by
    rw [accS_reset m c (8 * p.val + 0) h (by omega), pay4_apply, pay1_apply, zero_add, Finset.sum_range_one,
      blockS, dif_pos h]
  | s + 1, hs, h => by
    have h' : 8 * p.val + s < cfg0.N := Nat.lt_of_succ_lt h
    show accS m c ((8 * p.val + s) + 1) h (ix3 0 a d) = _
    rw [accS_step m c (8 * p.val + s) h (by omega), pay4_apply, accS_apply c p a d s (by omega) h',
      Finset.sum_range_succ _ (s + 1)]
    congr 1
    show _ = blockS m c ((8 * p.val + s) + 1) a d
    rw [blockS, dif_pos (show 8 * p.val + s + 1 < cfg0.N from h)]

theorem accN_apply (c : Dev nD) (p : Fin 2) (a : Fin 512) : ∀ (s : ℕ) (hs : s < 8) (h : 8 * p.val + s < cfg0.N),
    accN m c (8 * p.val + s) h (ix3 0 0 a) = ∑ t ∈ Finset.range (s + 1), blockN m c (8 * p.val + t) a
  | 0, _, h => by
    rw [accN_reset m c (8 * p.val + 0) h (by omega), pay5_apply, pay2_apply, zero_add, Finset.sum_range_one,
      blockN, dif_pos h]
  | s + 1, hs, h => by
    have h' : 8 * p.val + s < cfg0.N := Nat.lt_of_succ_lt h
    show accN m c ((8 * p.val + s) + 1) h (ix3 0 0 a) = _
    rw [accN_step m c (8 * p.val + s) h (by omega), pay5_apply, accN_apply c p a s (by omega) h',
      Finset.sum_range_succ _ (s + 1)]
    congr 1
    show _ = blockN m c ((8 * p.val + s) + 1) a
    rw [blockN, dif_pos (show 8 * p.val + s + 1 < cfg0.N from h)]

/-- For a label word that is a class number, the one-hot entry at class `a` is 1 exactly when the word's class is `a`. -/
theorem hot_eq (w : BitVec 32) (hw : w.toNat < 512) (a : Fin 512) :
    hot w a = if (⟨w.toNat % 512, Nat.mod_lt _ (by norm_num)⟩ : Fin 512) = a then (1 : EReal) else 0 := by
  unfold hot
  have ha : a.val < 512 := a.isLt
  refine if_congr ?_ rfl rfl
  constructor
  · intro h
    apply Fin.ext
    show w.toNat % 512 = a.val
    rw [h, BitVec.toNat_ofNat]
    omega
  · intro h
    have h1 : w.toNat % 512 = a.val := congrArg Fin.val h
    apply BitVec.eq_of_toNat_eq
    rw [BitVec.toNat_ofNat]
    omega

/-- The block at point `8 p + t`: its class-sum contribution over the launch arrays, for labels that are class
    numbers. -/
theorem blockS_eq (c : Dev nD) (hlab : ∀ j : Fin 65536, (L m c j).toNat < 512) (p : Fin 2) (t : Fin 8) (a d : Fin 512) :
    blockS m c (8 * p.val + t.val) a d
      = ∑ k : Fin 4096, (if cls (L m c) (row p t k) = a then X m c (row p t k) d else 0) := by
  have hN : cfg0.N = 16 := N_0
  have h : 8 * p.val + t.val < cfg0.N := by have := p.isLt; have := t.isLt; omega
  rw [blockS, dif_pos h]
  refine Finset.sum_congr rfl fun k _ => ?_
  rw [lblk_apply, xblk_apply, HostPrefix.labels_staged m c _ k hlab, V_main_arg0]
  have e : (⟨(8 * p.val + t.val) * 4096 + k.val, by have := p.isLt; have := t.isLt; have := k.isLt; omega⟩ : Fin 65536)
      = row p t k := Fin.ext (by show (8 * p.val + t.val) * 4096 + k.val = (p.val * 8 + t.val) * 4096 + k.val; ring)
  show hot (L m c _) a * X m c _ d = _
  rw [e, hot_eq _ (hlab _) a]
  show (if cls (L m c) (row p t k) = a then (1 : EReal) else 0) * _ = _
  split_ifs <;> simp

theorem blockN_eq (c : Dev nD) (hlab : ∀ j : Fin 65536, (L m c j).toNat < 512) (p : Fin 2) (t : Fin 8) (a : Fin 512) :
    blockN m c (8 * p.val + t.val) a
      = ∑ k : Fin 4096, (if cls (L m c) (row p t k) = a then (1 : EReal) else 0) := by
  have hN : cfg0.N = 16 := N_0
  have h : 8 * p.val + t.val < cfg0.N := by have := p.isLt; have := t.isLt; omega
  rw [blockN, dif_pos h]
  refine Finset.sum_congr rfl fun k _ => ?_
  rw [lblk_apply, HostPrefix.labels_staged m c _ k hlab]
  have e : (⟨(8 * p.val + t.val) * 4096 + k.val, by have := p.isLt; have := t.isLt; have := k.isLt; omega⟩ : Fin 65536)
      = row p t k := Fin.ext (by show (8 * p.val + t.val) * 4096 + k.val = (p.val * 8 + t.val) * 4096 + k.val; ring)
  show hot (L m c _) a = _
  rw [e, hot_eq _ (hlab _) a]
  rfl

/-- The two partial class-sum tables add up to the class sums. -/
theorem sums_eq (c : Dev nD) (hlab : ∀ j : Fin 65536, (L m c j).toNat < 512) (a d : Fin 512) :
    ∑ p : Fin 2, A2 m c (ix3 p a d)
      = classSum (X m c) (cls (L m c)) a d := by
  unfold classSum
  rw [← sum_rows]
  refine Finset.sum_congr rfl fun p _ => ?_
  refine (sums_array m c p a d).trans ?_
  refine (accS_apply m c p a d 7 (by norm_num) (last_lt p)).trans ?_
  show (∑ t ∈ Finset.range 8, blockS m c (8 * p.val + t) a d : EReal) = _
  rw [Finset.sum_range]
  exact Finset.sum_congr rfl fun t _ => blockS_eq m c hlab p t a d

/-- The two partial class-count rows add up to the class counts. -/
theorem counts_eq (c : Dev nD) (hlab : ∀ j : Fin 65536, (L m c j).toNat < 512) (a : Fin 512) :
    ∑ p : Fin 2, A3 m c (ix3 p 0 a)
      = classCount (cls (L m c)) a := by
  unfold classCount
  rw [← sum_rows]
  refine Finset.sum_congr rfl fun p _ => ?_
  refine (counts_array m c p a).trans ?_
  refine (accN_apply m c p a 7 (by norm_num) (last_lt p)).trans ?_
  show (∑ t ∈ Finset.range 8, blockN m c (8 * p.val + t) a : EReal) = _
  rw [Finset.sum_range]
  exact Finset.sum_congr rfl fun t _ => blockN_eq m c hlab p t a

/-- THE KERNEL PROGRAM'S RESULT, for labels that are class numbers: the loss formed class by class. -/
theorem value (c : Dev nD) (hlab : ∀ j : Fin 65536, (L m c j).toNat < 512) :
    Pipeline.afterTail₀ cfgs (dats m) 0 (V0 m) [hostOps1] c main_v35 = fun _ =>
      lossPerClass (classSum (X m c) (cls (L m c))) (classCount (cls (L m c))) := by
  rw [HostTail.tail_value]
  funext _
  exact congrArg₂ lossPerClass (funext fun a => funext fun d => sums_eq m c hlab a d)
    (funext fun a => counts_eq m c hlab a)

end Cert.KernelIdeal.KernelValue

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.RefValue.lean ====
/-
  The reference program's result as the loss formed sample by sample.

  The reference scatters the samples and a vector of ones into per-class sums and counts, sums all samples, gathers
  each sample's class sum and class count back, and averages the samples' hinges. With every label a class number the
  scatter's landing test and the gather's clamped start index are the sample's class, and the result is
  `ScatterLoss.lossPerSample` of the class sums, the class counts, the total and the classes.
-/
import proofs.«407749_j69217692942358_3_alg».proof.Proof.Gen.ReferenceIdeal.Read
import proofs.«407749_j69217692942358_3_alg».proof.Proof.Spec
import proofs.«407749_j69217692942358_3_alg».proof.Proof.LibGatherScatter
import Idealize.ShloMosaic.Lib.ValueIdx
import Idealize.ShloMosaic.Lib.Affine
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.GatherScatter ScatterLoss

/-! ## One label word in the class range -/

/-- A word below 512 read signed is its unsigned value. -/
private theorem toInt_of_lt {w : BitVec 32} (h : w.toNat < 512) : w.toInt = (w.toNat : Int) :=
  BitVec.toInt_eq_toNat_of_lt (by omega)

/-- The landing test of a scatter on a label word in range: the word read signed is class `c` exactly when the
    word's class is `c`. -/
private theorem land_iff {w : BitVec 32} (h : w.toNat < 512) (c : Fin 512) :
    w.toInt = (c.val : Int) ↔ (⟨w.toNat % 512, Nat.mod_lt _ (by norm_num)⟩ : Fin 512) = c := by
  rw [toInt_of_lt h, Fin.ext_iff]
  simp only
  omega

/-- A label word in range is not negative, so the wrap-around select returns the word itself. -/
private theorem sel_eq {w : BitVec 32} (h : w.toNat < 512) :
    Scalar.select (IntOp.cmpi .slt w 0#32) (IntOp.addi w 512#32) w = w := by
  have hc : IntOp.cmpi .slt w 0#32 = 0#1 := by
    apply eq_zero_of_ne_one
    rw [IntOp.cmpi_slt, toInt_of_lt h]
    have h0 : (0#32 : BitVec 32).toInt = 0 := by decide
    rw [h0]
    omega
  rw [hc, select_zero]

/-- The clamped start index of a gather at a label word in range is the word's value. -/
private theorem clamp_eq {w : BitVec 32} (h : w.toNat < 512) : min w.toInt.toNat (512 - 1) = w.toNat % 512 := by
  rw [toInt_of_lt h, Int.toNat_natCast]
  omega

/-! ## The printed dimension records are the general ones -/

private theorem rowScatter_rec :
    scatter_S512x512_S65536x1_S65536x512_1_0_0_1
      = rowScatterDims 512 512 65536 Facts₀.scatter_S512x512_S65536x1_S65536x512_1_0_0_1_wf := rfl

private theorem vecScatter_rec :
    scatter_S512_S65536x1_S65536_n_0_0_1
      = vecScatterDims 512 65536 Facts₀.scatter_S512_S65536x1_S65536_n_0_0_1_wf := rfl

private theorem rowGather_rec :
    gather_S512x512_S65536x1_S65536x512_1_0_n_n_0_1_1512
      = rowGatherDims 512 512 65536 Facts₀.gather_S512x512_S65536x1_S65536x512_1_0_n_n_0_1_1512_wf := rfl

private theorem vecGather_rec :
    gather_S512_S65536x1_S65536_n_0_n_n_0_1_1
      = vecGatherDims 512 65536 Facts₀.gather_S512_S65536x1_S65536_n_0_n_n_0_1_1_wf := rfl

/-! ## The label column the scatters and the gathers read -/

variable (x0 : (⟨S65536x512, .f32⟩ : BufTy).Contents (Elt Ideal)) (x1 : (⟨S65536, .i32⟩ : BufTy).Contents (Elt Ideal))

/-- The column the class sums are scattered by holds the raw labels. -/
private theorem v1_col (j : Fin 65536) : val_main_v1 (F := Ideal) x1 (ix2 j 0) = x1 (ix1 j) := by
  rw [val_main_v1_apply]
  exact congrArg x1 (funext fun a => by match a with | ⟨0, _⟩ => rfl)

/-- The column the class counts are scattered by holds the raw labels. -/
private theorem v5_col (j : Fin 65536) : val_main_v5 (F := Ideal) x1 (ix2 j 0) = x1 (ix1 j) := by
  rw [val_main_v5_apply]
  exact congrArg x1 (funext fun a => by match a with | ⟨0, _⟩ => rfl)

/-- The column the class sums are gathered by holds, for a label in range, the label. -/
private theorem v13_col (j : Fin 65536) (h : (x1 (ix1 j)).toNat < 512) :
    val_main_v13 (F := Ideal) x1 (ix2 j 0) = x1 (ix1 j) := by
  have hi : idx_main_v13 (ix2 j (0 : Fin 1)) = ix1 j := funext fun a => by match a with | ⟨0, _⟩ => rfl
  rw [val_main_v13_apply, hi, val_main_v12_apply, val_main_v9_apply, val_main_v11_apply, val_main_v8_apply,
    val_main_v10_apply, val_main_c_apply, val_main_c_3_apply]
  exact sel_eq h

/-- The column the class counts are gathered by holds, for a label in range, the label. -/
private theorem v20_col (j : Fin 65536) (h : (x1 (ix1 j)).toNat < 512) :
    val_main_v20 (F := Ideal) x1 (ix2 j 0) = x1 (ix1 j) := by
  have hi : idx_main_v20 (ix2 j (0 : Fin 1)) = ix1 j := funext fun a => by match a with | ⟨0, _⟩ => rfl
  rw [val_main_v20_apply, hi, val_main_v19_apply, val_main_v16_apply, val_main_v18_apply, val_main_v15_apply,
    val_main_v17_apply, val_main_c_4_apply, val_main_c_5_apply]
  exact sel_eq h

/-! ## The class sums, the class counts and the total -/

/-- The word `1.0` denotes 1. -/
private theorem one_word : Ideal.ofBits .f32 0x3F800000#32 = 1 := by
  simp [Ideal.ofBits, Ideal.ieee, -EReal.coe_mul]; norm_num

/-- THE SCATTERED SAMPLES are the class sums. -/
private theorem v2_read (hlab : ∀ j : Fin 65536, (x1 (ix1 j)).toNat < 512) (c d : Fin 512) :
    val_main_v2 (F := Ideal) x0 x1 (ix2 c d)
      = classSum (fun j d => x0 (ix2 j d)) (cls fun j => x1 (ix1 j)) c d := by
  unfold val_main_v2
  rw [rowScatter_rec, rowScatterAdd_apply, val_main_v0_apply, val_main_cst_apply, Ideal.ofBits_def,
    Ideal.ofBits_zero_f32, zero_add, Finset.sum_filter]
  unfold classSum
  refine Finset.sum_congr rfl fun j _ => ?_
  rw [v1_col]
  exact if_congr (land_iff (hlab j) c) rfl rfl

/-- THE SCATTERED ONES are the class counts. -/
private theorem v6_read (hlab : ∀ j : Fin 65536, (x1 (ix1 j)).toNat < 512) (c : Fin 512) :
    val_main_v6 (F := Ideal) x1 (ix1 c) = classCount (cls fun j => x1 (ix1 j)) c := by
  unfold val_main_v6
  rw [vecScatter_rec, vecScatterAdd_apply, val_main_v4_apply, val_main_cst_1_apply, Ideal.ofBits_def,
    Ideal.ofBits_zero_f32, zero_add, Finset.sum_filter]
  unfold classCount
  refine Finset.sum_congr rfl fun j _ => ?_
  rw [v5_col, val_main_v3_apply, val_main_cst_0_apply, Ideal.ofBits_def, one_word]
  exact if_congr (land_iff (hlab j) c) rfl rfl

/-- The column sums of the samples are the total. -/
private theorem v7_read (d : Fin 512) :
    val_main_v7 (F := Ideal) x0 (ix1 d) = colTotal (fun j d => x0 (ix2 j d)) d := by
  rw [val_main_v7_apply, val_main_cst_2_apply, Ideal.ofBits_def, Ideal.ofBits_zero_f32, zero_add]
  unfold colTotal
  refine Finset.sum_congr rfl fun k _ => ?_
  exact congrArg x0 (funext fun a => by match a with | ⟨0, _⟩ => rfl | ⟨1, _⟩ => rfl)

/-! ## The gathers return the sample's class sum and class count -/

/-- Row `j` of the gathered class sums is the row of sample `j`'s class. -/
private theorem v14_read (j : Fin 65536) (d : Fin 512) (h : (x1 (ix1 j)).toNat < 512) :
    val_main_v14 (F := Ideal) x0 x1 (ix2 j d)
      = val_main_v2 (F := Ideal) x0 x1 (ix2 (cls (fun j => x1 (ix1 j)) j) d) := by
  unfold val_main_v14
  rw [rowGather_rec, rowGather_apply (N := 512) (by norm_num)]
  refine congrArg (fun r => val_main_v2 (F := Ideal) x0 x1 (ix2 r d)) (Fin.ext ?_)
  show min (val_main_v13 (F := Ideal) x1 (ix2 j 0)).toInt.toNat (512 - 1) = (x1 (ix1 j)).toNat % 512
  rw [v13_col x1 j h]
  exact clamp_eq h

/-- Element `j` of the gathered class counts is the count of sample `j`'s class. -/
private theorem v21_read (j : Fin 65536) (h : (x1 (ix1 j)).toNat < 512) :
    val_main_v21 (F := Ideal) x1 (ix1 j)
      = val_main_v6 (F := Ideal) x1 (ix1 (cls (fun j => x1 (ix1 j)) j)) := by
  unfold val_main_v21
  rw [vecGather_rec, vecGather_apply (N := 512) (by norm_num)]
  refine congrArg (fun r => val_main_v6 (F := Ideal) x1 (ix1 r)) (Fin.ext ?_)
  show min (val_main_v20 (F := Ideal) x1 (ix2 j 0)).toInt.toNat (512 - 1) = (x1 (ix1 j)).toNat % 512
  rw [v20_col x1 j h]
  exact clamp_eq h

/-! ## One sample's features: the denominators and the total along a row -/

/-- The gathered class count as a column. -/
private theorem v22_read (j : Fin 65536) :
    val_main_v22 (F := Ideal) x1 (ix2 j 0) = val_main_v21 (F := Ideal) x1 (ix1 j) := by
  have h : idx_main_v22 (ix2 j (0 : Fin 1)) = ix1 j := funext fun a => by match a with | ⟨0, _⟩ => rfl
  rw [val_main_v22_apply, h]

/-- The class count along row `j`. -/
private theorem v23_read (j : Fin 65536) (d : Fin 512) :
    val_main_v23 (F := Ideal) x1 (ix2 j d) = val_main_v21 (F := Ideal) x1 (ix1 j) := by
  have h : idx_main_v23 (ix2 j d) = ix2 j (0 : Fin 1) :=
    funext fun a => by match a with | ⟨0, _⟩ => rfl | ⟨1, _⟩ => rfl
  rw [val_main_v23_apply, h, v22_read]

/-- The total along every row. -/
private theorem v26_read (j : Fin 65536) (d : Fin 512) :
    val_main_v26 (F := Ideal) x0 (ix2 j d) = val_main_v7 (F := Ideal) x0 (ix1 d) := by
  have h1 : idx_main_v26 (ix2 j d) = ix2 (0 : Fin 1) d :=
    funext fun a => by match a with | ⟨0, _⟩ => rfl | ⟨1, _⟩ => rfl
  have h2 : idx_main_v25 (ix2 (0 : Fin 1) d) = ix1 d := funext fun a => by match a with | ⟨0, _⟩ => rfl
  rw [val_main_v26_apply, h1, val_main_v25_apply, h2]

/-- The size of the complement of the class along row `j`. -/
private theorem v30_read (j : Fin 65536) (d : Fin 512) :
    val_main_v30 (F := Ideal) x1 (ix2 j d) = cnt - val_main_v21 (F := Ideal) x1 (ix1 j) := by
  have h : idx_main_v30 (ix2 j d) = ix2 j (0 : Fin 1) :=
    funext fun a => by match a with | ⟨0, _⟩ => rfl | ⟨1, _⟩ => rfl
  rw [val_main_v30_apply, h, val_main_v29_apply, val_main_v28_apply, val_main_cst_6_apply, v22_read,
    Ideal.subf_def, Ideal.ofBits_def]

/-! ## One sample's hinge -/

/-- Feature `d` of sample `j`'s shifted difference of the two means. -/
private theorem v34_read (hlab : ∀ j : Fin 65536, (x1 (ix1 j)).toNat < 512) (j : Fin 65536) (d : Fin 512) :
    val_main_v34 (F := Ideal) x0 x1 (ix2 j d)
      = meanGap (classSum (fun j d => x0 (ix2 j d)) (cls fun j => x1 (ix1 j)))
          (colTotal fun j d => x0 (ix2 j d))
          (classCount (cls fun j => x1 (ix1 j)) (cls (fun j => x1 (ix1 j)) j))
          (cnt - classCount (cls fun j => x1 (ix1 j)) (cls (fun j => x1 (ix1 j)) j))
          (cls (fun j => x1 (ix1 j)) j) d := by
  rw [val_main_v34_apply, val_main_v32_apply, val_main_v24_apply, val_main_v31_apply, val_main_v27_apply,
    v23_read, v26_read, v30_read, val_main_v33_apply, val_main_cst_7_apply, v14_read x0 x1 j d (hlab j),
    v21_read x1 j (hlab j), v2_read x0 x1 hlab, v6_read x1 hlab, v7_read]
  simp only [Ideal.addf_def, Ideal.subf_def, Ideal.hostDivf_def, Ideal.ofBits_def]
  rfl

/-- The squared norm of sample `j`'s shifted difference of means. -/
private theorem v36_read (hlab : ∀ j : Fin 65536, (x1 (ix1 j)).toNat < 512) (j : Fin 65536) :
    val_main_v36 (F := Ideal) x0 x1 (ix1 j)
      = ∑ d, meanGap (classSum (fun j d => x0 (ix2 j d)) (cls fun j => x1 (ix1 j)))
            (colTotal fun j d => x0 (ix2 j d))
            (classCount (cls fun j => x1 (ix1 j)) (cls (fun j => x1 (ix1 j)) j))
            (cnt - classCount (cls fun j => x1 (ix1 j)) (cls (fun j => x1 (ix1 j)) j))
            (cls (fun j => x1 (ix1 j)) j) d
          * meanGap (classSum (fun j d => x0 (ix2 j d)) (cls fun j => x1 (ix1 j)))
            (colTotal fun j d => x0 (ix2 j d))
            (classCount (cls fun j => x1 (ix1 j)) (cls (fun j => x1 (ix1 j)) j))
            (cnt - classCount (cls fun j => x1 (ix1 j)) (cls (fun j => x1 (ix1 j)) j))
            (cls (fun j => x1 (ix1 j)) j) d := by
  rw [val_main_v36_apply, val_main_cst_8_apply, Ideal.ofBits_def, Ideal.ofBits_zero_f32, zero_add]
  refine Finset.sum_congr rfl fun k _ => ?_
  have h : idx_main_v36 (ix1 j) k = ix2 j k :=
    funext fun a => by match a with | ⟨0, _⟩ => rfl | ⟨1, _⟩ => rfl
  rw [h, val_main_v35_apply, v34_read x0 x1 hlab, Ideal.mulf_def]

/-- SAMPLE `j`'S SUMMAND is the hinge of its class. -/
private theorem v43_read (hlab : ∀ j : Fin 65536, (x1 (ix1 j)).toNat < 512) (j : Fin 65536) :
    val_main_v43 (F := Ideal) x0 x1 (ix2 j 0)
      = hinge (classSum (fun j d => x0 (ix2 j d)) (cls fun j => x1 (ix1 j)))
          (colTotal fun j d => x0 (ix2 j d))
          (classCount (cls fun j => x1 (ix1 j)) (cls (fun j => x1 (ix1 j)) j))
          (cnt - classCount (cls fun j => x1 (ix1 j)) (cls (fun j => x1 (ix1 j)) j))
          (cls (fun j => x1 (ix1 j)) j) := by
  have h : idx_main_v37 (ix2 j (0 : Fin 1)) = ix1 j := funext fun a => by match a with | ⟨0, _⟩ => rfl
  rw [val_main_v43_apply, val_main_v42_apply, val_main_v40_apply, val_main_v41_apply, val_main_cst_10_apply,
    val_main_v39_apply, val_main_cst_9_apply, val_main_v38_apply, val_main_v37_apply, h,
    v36_read x0 x1 hlab]
  simp only [Ideal.mulf_def, Ideal.maximumf_def, Ideal.subf_def, Ideal.hostUnary_sqrt_def, Ideal.ofBits_def,
    Ideal.ofBits_zero_f32]
  rfl

/-- THE REFERENCE'S RESULT, for labels that are class numbers: the loss formed sample by sample. -/
theorem value (x0 : (⟨S65536x512, .f32⟩ : BufTy).Contents (Elt Ideal)) (x1 : (⟨S65536, .i32⟩ : BufTy).Contents (Elt Ideal))
    (hlab : ∀ j : Fin 65536, (x1 (ix1 j)).toNat < 512) :
    val_main_v45 (F := Ideal) x0 x1 = fun _ =>
      lossPerSample (classSum (fun j d => x0 (ix2 j d)) (cls fun j => x1 (ix1 j)))
        (classCount (cls fun j => x1 (ix1 j))) (colTotal fun j d => x0 (ix2 j d)) (cls fun j => x1 (ix1 j)) := by
  funext i
  rw [val_main_v45_apply, val_main_v44_apply, val_main_cst_11_apply, val_main_cst_12_apply, Ideal.hostDivf_def,
    Ideal.ofBits_def, Ideal.ofBits_def, Ideal.ofBits_zero_f32, zero_add, sum_idx2]
  unfold lossPerSample
  refine congrArg (fun s => Ideal.div s cnt) (Finset.sum_congr rfl fun j _ => ?_)
  rw [Fin.sum_univ_one]
  exact v43_read x0 x1 hlab j

end Cert.ReferenceIdeal.RefValue

end
-- ==== Proof.PreFacts.lean ====
/-
  What the stated precondition says of the labels: every label word is a class number (0 ≤ label < 512), and the
  labels are not all one class (some label differs from the first one, so no class holds every sample).
-/
import proofs.«407749_j69217692942358_3_alg».proof.Pre_finite_inputs
import proofs.«407749_j69217692942358_3_alg».proof.Proof.Spec
import Idealize.ShloMosaic.Lib.ReduceAll
import Idealize.ShloMosaic.Lib.ValueIdx
import Idealize.ShloMosaic.PureOps.Ideal

noncomputable section

namespace ScatterLoss.Pre

open Idealize.ShloMosaic Idealize.ShloMosaic.ValueIdx Cert.Pre_finite_inputs

variable [Cert.Pre_finite_inputs.Facts]

/-- The scalar shape has one index. -/
private instance : Subsingleton S_.Idx := ⟨fun _ _ => funext fun d => d.elim0⟩

/-- A left fold by `or` over one-bit words that came out 1 started at 1 or met a 1. -/
private theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- Every element of the one-element slice at offset 0 is the first label. -/
private theorem slice_first (x1 : IVec S65536 32) (k : S1.Idx) :
    extractStridedSlice S1 ![0] x1 Facts.slices_S65536_S1_0 k = x1 (ix1 0) := by
  unfold extractStridedSlice
  refine congrArg x1 (funext fun a => ?_)
  match a with
  | ⟨0, _⟩ =>
    apply Fin.ext
    have hk : (k (Fin.cast Facts.slices_S65536_S1_0.1.symm ⟨0, by decide⟩)).val < 1 := (k _).isLt
    show 0 + (k (Fin.cast Facts.slices_S65536_S1_0.1.symm ⟨0, by decide⟩)).val = 0
    omega

/-- The first label, taken out as a scalar and spread over all samples, reads the first label at every sample. -/
private theorem first_label (x1 : IVec S65536 32) (i : S65536.Idx) :
    broadcastInDim S65536 ![] Facts.bcast_S_S65536
      (shapeCast S_ (extractStridedSlice S1 ![0] x1 Facts.slices_S65536_S1_0) Facts.shapeCasts_S1_S_) i = x1 (ix1 0) := by
  unfold broadcastInDim shapeCast
  exact slice_first x1 _

/-- The precondition's two label parts, element by element: each label is at least 0 and below 512 read signed,
    and some label is not the first one. -/
private theorem parts (x0 : FVec Ideal S65536x512 .f32) (x1 : IVec S65536 32)
    (h : fn (F := Ideal) x0 x1 = fun _ => 1#1) :
    (∀ i : S65536.Idx, (0#32 : BitVec 32).toInt ≤ (x1 i).toInt ∧ (x1 i).toInt < (512#32 : BitVec 32).toInt) ∧
      ∃ i : S65536.Idx, x1 i ≠ x1 (ix1 0) := by
  obtain ⟨h10, h15⟩ := IntOp.andi_eq_one.1 (congrFun h ix0)
  obtain ⟨-, h9⟩ := IntOp.andi_eq_one.1 h10
  refine ⟨fun i => ?_, ?_⟩
  · obtain ⟨h5, h7⟩ := IntOp.andi_eq_one.1 (Host.reduce_andi_all _ _ _ _ ix0 h9 i)
    exact ⟨IntOp.cmpi_sge.1 h5, IntOp.cmpi_slt.1 h7⟩
  · beta_reduce at h15
    rw [Host.reduce_eq_foldl] at h15
    rcases foldl_ori_eq_one _ _ _ h15 with hinit | ⟨i, -, hi⟩
    · exact absurd hinit (show ¬((0#1 : BitVec 1) = 1#1) from by decide)
    · exact ⟨i, fun e => IntOp.cmpi_ne.1 hi (e.trans (first_label x1 i).symm)⟩

/-- Under the precondition every label word is below 512 (it is non-negative and below 512 as a signed word). -/
theorem labels_in_range (x0 : FVec Ideal S65536x512 .f32) (x1 : IVec S65536 32)
    (h : fn (F := Ideal) x0 x1 = fun _ => 1#1) (j : Fin 65536) : (x1 (ix1 j)).toNat < 512 := by
  obtain ⟨h0, h1⟩ := (parts x0 x1 h).1 (ix1 j)
  rw [show (0#32 : BitVec 32).toInt = 0 from by decide] at h0
  rw [show (512#32 : BitVec 32).toInt = 512 from by decide] at h1
  rw [BitVec.toInt_eq_toNat_cond] at h0 h1
  split at h0 <;> omega

/-- Under the precondition no class holds every sample: for each class some sample is of another class. -/
theorem labels_not_constant (x0 : FVec Ideal S65536x512 .f32) (x1 : IVec S65536 32)
    (h : fn (F := Ideal) x0 x1 = fun _ => 1#1) (c : Fin 512) :
    ∃ j : Fin 65536, ScatterLoss.cls (fun j => x1 (ix1 j)) j ≠ c := by
  obtain ⟨i, hi⟩ := (parts x0 x1 h).2
  by_cases hc0 : ScatterLoss.cls (fun j => x1 (ix1 j)) 0 = c
  · -- the first sample is of class `c`: a sample whose label differs from the first one is of another class,
    -- because on words below 512 the class is the word
    refine ⟨i 0, fun hc => hi ?_⟩
    have e : (x1 (ix1 (i 0))).toNat % 512 = (x1 (ix1 0)).toNat % 512 := congrArg Fin.val (hc.trans hc0.symm)
    rw [Nat.mod_eq_of_lt (labels_in_range x0 x1 h (i 0)), Nat.mod_eq_of_lt (labels_in_range x0 x1 h 0)] at e
    exact (congrArg x1 (eq_ix1 i)).trans (BitVec.eq_of_toNat_eq e)
  · exact ⟨0, hc0⟩

end ScatterLoss.Pre

end
-- ==== Proof.lean ====
/-
  The certificate of the scatter loss: the kernel program (class sums and class counts by a one-hot matrix product over
  2 × 8 blocks of samples, then the loss formed class by class) against the reference (class sums and counts by
  scatter, gathered back per sample, the loss formed sample by sample), over the extended reals.

  Under the precondition every label is a class number (0 ≤ label < 512) and the labels are not all one class. Then
  the kernel's result is `lossPerClass` of the class sums and class counts of the samples, the reference's result is
  `lossPerSample` of the same sums, counts and the total, and the two agree: for a class that has a sample the
  denominators max (n, 1) and max (65536 - n, 1) are n and 65536 - n (no class holds every sample), a class without a
  sample weighs 0, and a class's hinge counted once per sample of the class is its size times the hinge.
  The three frames are the generated frame runs; the idealization rewrote nothing.
-/
import proofs.«407749_j69217692942358_3_alg».proof.Defs
import proofs.«407749_j69217692942358_3_alg».proof.Proof.Gen.Kernel
import proofs.«407749_j69217692942358_3_alg».proof.Proof.Gen.Kernel.Frame
import proofs.«407749_j69217692942358_3_alg».proof.Proof.Gen.KernelIdeal
import proofs.«407749_j69217692942358_3_alg».proof.Proof.Gen.KernelIdeal.Frame
import proofs.«407749_j69217692942358_3_alg».proof.Proof.Gen.ReferenceIdeal
import proofs.«407749_j69217692942358_3_alg».proof.Proof.Gen.Pre_finite_inputs
import proofs.«407749_j69217692942358_3_alg».proof.Proof.Gen.ReferenceIdeal.Run
import proofs.«407749_j69217692942358_3_alg».proof.Proof.Gen.ReferenceIdeal.Read
import proofs.«407749_j69217692942358_3_alg».proof.Proof.KernelValue
import proofs.«407749_j69217692942358_3_alg».proof.Proof.RefValue
import proofs.«407749_j69217692942358_3_alg».proof.Proof.PreFacts
import proofs.«407749_j69217692942358_3_alg».proof.Proof.SpecLaws
import Idealize.ShloMosaic.Adequacy
import Idealize.ShloMosaic.Init

noncomputable section

namespace Cert.Proof

open Idealize.ShloMosaic Idealize.ShloMosaic.TcCoe Idealize.SL.Sem ScatterLoss

/-- The two idealized programs end with the same loss: the kernel's class-by-class form of the class sums and counts
    equals the reference's sample-by-sample form, the labels being class numbers and not all one class. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hlab : ∀ (c : Dev Cert.KernelIdeal.nD) (j : Fin 65536), (Cert.KernelIdeal.KernelValue.L m c j).toNat < 512 :=
    fun c j => ScatterLoss.Pre.labels_in_range _ _ (hpre c) j
  have hne : ∀ (c : Dev Cert.KernelIdeal.nD) (a : Fin 512), ∃ j, cls (Cert.KernelIdeal.KernelValue.L m c) j ≠ a :=
    fun c a => ScatterLoss.Pre.labels_not_constant _ _ (hpre c) a
  refine ⟨fun c => fun _ => lossPerClass (classSum (Cert.KernelIdeal.KernelValue.X m c) (cls (Cert.KernelIdeal.KernelValue.L m c)))
    (classCount (cls (Cert.KernelIdeal.KernelValue.L m c))), ?_, ?_⟩
  · refine (θ_run Cert.KernelIdeal.defs _ _).mono (fun r h c => ⟨?_, ?_, ?_⟩) (Cert.KernelIdeal.Gen.run_main m ρ)
    · exact ((h c).2 Cert.KernelIdeal.main_v35 (Pipeline.mem_restRefs_of Cert.KernelIdeal.main_v35 (by decide) (by decide))).trans
        (Cert.KernelIdeal.KernelValue.value m c (hlab c))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, (hagree c).1, (hagree c).2,
      Cert.ReferenceIdeal.RefValue.value _ _ (hlab c)]
    funext _
    exact (perClass_eq_perSample _ _ (hne c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
